-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x3 : Shape := ⟨2, ![20000, 3]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x3 : S_.BroadcastsInDim S20000x3 (![] : Fin 0 → Fin S20000x3.rank)
  reducesTo_S20000x3_S_d0_1 : S20000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128 .f32) (main_arg9 : FVec F S128x1 .f32) (main_arg10 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S256x128 .f32) (main_arg8 : FVec F S128 .f32) (main_arg9 : FVec F S128x1 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S20000x128 .f32) (main_arg1 : FVec F S20000x3 .f32) (main_arg2 : IVec S2x640000 32) (main_arg3 : FVec F S257x128 .f32) (main_arg4 : FVec F S128 .f32) (main_arg5 : FVec F S128x128 .f32) (main_arg6 : FVec F S128 .f32) (main_arg7 : FVec F S256x128 .f32) (main_arg8 : FVec F S128 .f32) (main_arg9 : FVec F S128x1 .f32) (main_arg10 : FVec F S1 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x3 .f32 := Host.absf main_arg1
  let main_cst_0 : FVec F S_ .f32 := constant S_ .f32 0x7F800000#32
  let main_v5 : FVec F S20000x3 .f32 := broadcastInDim S20000x3 ![] bcast_S_S20000x3 main_cst_0
  let main_v6 : IVec S20000x3 1 := cmpf .olt main_v4 main_v5
  let main_c_1 : IVec S_ 1 := constantI S_ 1 1#1
  let main_v7 : IVec S_ 1 := (fun x v => Host.reduce IntOp.andi x v reducesTo_S20000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S20000x128 : Shape := ⟨2, ![20000, 128]⟩
abbrev S20000x3 : Shape := ⟨2, ![20000, 3]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x3 : Shape := ⟨2, ![640000, 3]⟩
abbrev S640000x128 : Shape := ⟨2, ![640000, 128]⟩
abbrev S1x128 : Shape := ⟨2, ![1, 128]⟩
abbrev S1x1 : Shape := ⟨2, ![1, 1]⟩
abbrev S2560x128 : Shape := ⟨2, ![2560, 128]⟩
abbrev S2560x1 : Shape := ⟨2, ![2560, 1]⟩
abbrev S2000x128 : Shape := ⟨2, ![2000, 128]⟩

abbrev nBuf : Space → Nat
  | .hbm => 87
  | .vmem => 27
  | .smem => 0
  | _ => 0

abbrev bufTy : (tb : Table) → Fin (tcTables nBuf tb) → BufTy
  | .hbm, ⟨0, _⟩ => ⟨S20000x128, .f32⟩
  | .hbm, ⟨1, _⟩ => ⟨S20000x3, .f32⟩
  | .hbm, ⟨2, _⟩ => ⟨S2x640000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x3, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x3, .f32⟩
  | .hbm, ⟨33, _⟩ => ⟨S640000x3, .f32⟩
  | .hbm, ⟨34, _⟩ => ⟨S640000x3, .f32⟩
  | .hbm, ⟨35, _⟩ => ⟨S_, .f32⟩
  | .hbm, ⟨36, _⟩ => ⟨S640000, .f32⟩
  | .hbm, ⟨37, _⟩ => ⟨S640000x1, .f32⟩
  | .hbm, ⟨38, _⟩ => ⟨S20000x128, .bf16⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000x128, .bf16⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .bf16⟩
  | .hbm, ⟨57, _⟩ => ⟨S128x128, .f32⟩
  | .hbm, ⟨58, _⟩ => ⟨S128x128, .bf16⟩
  | .hbm, ⟨59, _⟩ => ⟨S128x128, .f32⟩
  | .hbm, ⟨60, _⟩ => ⟨S128x128, .bf16⟩
  | .hbm, ⟨61, _⟩ => ⟨S1x128, .f32⟩
  | .hbm, ⟨62, _⟩ => ⟨S1x128, .f32⟩
  | .hbm, ⟨63, _⟩ => ⟨S128x128, .bf16⟩
  | .hbm, ⟨64, _⟩ => ⟨S1x128, .f32⟩
  | .hbm, ⟨65, _⟩ => ⟨S128x1, .bf16⟩
  | .hbm, ⟨66, _⟩ => ⟨S1x1, .f32⟩
  | .hbm, ⟨67, _⟩ => ⟨S640000x128, .bf16⟩
  | .hbm, ⟨68, _⟩ => ⟨S640000x1, .f32⟩
  | .hbm, ⟨69, _⟩ => ⟨S640000x3, .f32⟩
  | .hbm, ⟨70, _⟩ => ⟨S640000x3, .f32⟩
  | .hbm, ⟨71, _⟩ => ⟨S_, .f32⟩
  | .hbm, ⟨72, _⟩ => ⟨S20000x3, .f32⟩
  | .hbm, ⟨73, _⟩ => ⟨S640000x1, .i32⟩
  | .hbm, ⟨74, _⟩ => ⟨S20000x3, .f32⟩
  | .hbm, ⟨75, _⟩ => ⟨S20000x3, .f32⟩
  | .hbm, ⟨76, _⟩ => ⟨S640000x128, .f32⟩
  | .hbm, ⟨77, _⟩ => ⟨S_, .f32⟩
  | .hbm, ⟨78, _⟩ => ⟨S20000x128, .f32⟩
  | .hbm, ⟨79, _⟩ => ⟨S640000x1, .i32⟩
  | .hbm, ⟨80, _⟩ => ⟨S20000x128, .f32⟩
  | .hbm, ⟨81, _⟩ => ⟨S128x128, .f32⟩
  | .hbm, ⟨82, _⟩ => ⟨S128x128, .bf16⟩
  | .hbm, ⟨83, _⟩ => ⟨S128x128, .f32⟩
  | .hbm, ⟨84, _⟩ => ⟨S128x128, .bf16⟩
  | .hbm, ⟨85, _⟩ => ⟨S1x128, .f32⟩
  | .hbm, ⟨86, _⟩ => ⟨S20000x128, .f32⟩
  | .local _ .vmem, ⟨0, _⟩ => ⟨S2560x128, .bf16⟩
  | .local _ .vmem, ⟨1, _⟩ => ⟨S2560x128, .bf16⟩
  | .local _ .vmem, ⟨2, _⟩ => ⟨S2560x128, .bf16⟩
  | .local _ .vmem, ⟨3, _⟩ => ⟨S2560x128, .bf16⟩
  | .local _ .vmem, ⟨4, _⟩ => ⟨S2560x1, .f32⟩
  | .local _ .vmem, ⟨5, _⟩ => ⟨S2560x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S128x1, .bf16⟩
  | .local _ .vmem, ⟨13, _⟩ => ⟨S1x1, .f32⟩
  | .local _ .vmem, ⟨14, _⟩ => ⟨S2560x128, .bf16⟩
  | .local _ .vmem, ⟨15, _⟩ => ⟨S2560x128, .bf16⟩
  | .local _ .vmem, ⟨16, _⟩ => ⟨S2560x1, .f32⟩
  | .local _ .vmem, ⟨17, _⟩ => ⟨S2560x1, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .bf16⟩
  | .local _ .vmem, ⟨23, _⟩ => ⟨S128x128, .bf16⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47_0 : Ref sig .tc := ⟨.hbm, 67, rfl⟩
abbrev main_v47_1 : Ref sig .tc := ⟨.hbm, 68, rfl⟩
abbrev main_v48 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem5_1 : DmaSem sig := 26

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2560x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2560x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  bitsLt_bf16_f32 : FTy.bits .bf16 < FTy.bits .f32
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  shapeCasts_S1_S1x1 : S1.ShapeCasts S1x1
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  inb_S2560x1_S2560x1_0_0 : ∀ a, (![0, 0] : Fin 2 → Nat) a + S2560x1.size a ≤ S2560x1.size a
  h_S2560x1 : 0 < S2560x1.numel
  shapeCasts_S2560x1_S2560x1 : S2560x1.ShapeCasts S2560x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2560x1_S2560x128 : S2560x1.Broadcasts S2560x128
  broadcasts_S1x128_S2560x128 : S1x128.Broadcasts S2560x128
  packedbf16_S2560x128_S2560x128_0_0 : (Rect.unit (s := S2560x128) ![0, 0] S2560x128.size inb_S2560x128_S2560x128_0_0).PackedRows (EltTy.packing .bf16)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2560x1 : S1x1.Broadcasts S2560x1
  bcast_S640000x1_S640000x3_0_1 : S640000x1.BroadcastsInDim S640000x3 (![0, 1] : Fin 2 → Fin S640000x3.rank)
  bcast_S_S20000x3 : S_.BroadcastsInDim S20000x3 (![] : Fin 0 → Fin S20000x3.rank)
  bcast_S_S20000x128 : S_.BroadcastsInDim S20000x128 (![] : Fin 0 → Fin S20000x128.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  gather_S20000x3_S640000x1_S640000x3_1_0_n_n_0_1_13_wf : GatherDims.WF S20000x3 S640000x1 S640000x3 [1] [0] [] [0] [] 1 ![1, 3]
  gather_S20000x128_S640000x1_S640000x128_1_0_n_n_0_1_1128_wf : GatherDims.WF S20000x128 S640000x1 S640000x128 [1] [0] [] [0] [] 1 ![1, 128]
  dot_S2560x128_S128x128_S2560x128_1_0_0_1_n_n_wf : DotDims.WF S2560x128 S128x128 S2560x128 [1] [0] [0] [1] [] []
  dot_S2560x128_S128x1_S2560x1_1_0_0_1_n_n_wf : DotDims.WF S2560x128 S128x1 S2560x1 [1] [0] [0] [1] [] []
  scatter_S20000x3_S640000x1_S640000x3_1_0_0_1_wf : ScatterDims.WF S20000x3 S640000x1 S640000x3 [1] [0] [0] 1
  scatter_S20000x128_S640000x1_S640000x128_1_0_0_1_wf : ScatterDims.WF S20000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x128.size a ≤ S640000x128.size a
  hwx0_0 : ∀ i : grid0.Coords, EltTy.bits .bf16 = 32 ∨ (Rect.block (s := S640000x128) S2560x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x128.size a ≤ S640000x128.size a
  hwx0_1 : ∀ i : grid0.Coords, EltTy.bits .bf16 = 32 ∨ (Rect.block (s := S640000x128) S2560x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x1.size a ≤ S640000x1.size a
  hwx0_2 : ∀ i : grid0.Coords, EltTy.bits .f32 = 32 ∨ (Rect.block (s := S640000x1) S2560x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .bf16 = 32 ∨ (Rect.block (s := S128x1) S128x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2560x128.size a ≤ S640000x128.size a
  hwx0_11 : ∀ i : grid0.Coords, EltTy.bits .bf16 = 32 ∨ (Rect.block (s := S640000x128) S2560x128.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2560x1.size a ≤ S640000x1.size a
  hwx0_12 : ∀ i : grid0.Coords, EltTy.bits .f32 = 32 ∨ (Rect.block (s := S640000x1) S2560x1.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S20000x128.size a
  hwx1_5 : ∀ i : grid1.Coords, EltTy.bits .f32 = 32 ∨ (Rect.block (s := S20000x128) S2000x128.size (cc1_transform_5 i) (hinb1_5 i)).WholeWords (EltTy.packing .f32)

variable [Facts₀]

def gather_S20000x3_S640000x1_S640000x3_1_0_n_n_0_1_13 : GatherDims S20000x3 S640000x1 S640000x3 where
  offsetDims := [1]
  collapsedSliceDims := [0]
  operandBatchingDims := []
  startIndicesBatchingDims := []
  startIndexMap := [0]
  indexVectorDim := 1
  sliceSizes := ![1, 3]
  wf := gather_S20000x3_S640000x1_S640000x3_1_0_n_n_0_1_13_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf
def dot_S2560x128_S128x1_S2560x1_1_0_0_1_n_n : DotDims S2560x128 S128x1 S2560x1 where
  lhsContracting := [1]
  rhsContracting := [0]
  lhsNonContracting := [0]
  rhsNonContracting := [1]
  lhsBatch := []
  rhsBatch := []
  wf := dot_S2560x128_S128x1_S2560x1_1_0_0_1_n_n_wf
def scatter_S20000x3_S640000x1_S640000x3_1_0_0_1 : ScatterDims S20000x3 S640000x1 S640000x3 where
  updateWindowDims := [1]
  insertedWindowDims := [0]
  scatterDimsToOperandDims := [0]
  indexVectorDim := 1
  wf := scatter_S20000x3_S640000x1_S640000x3_1_0_0_1_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v29) S2560x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S2560x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2560x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v44) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v46) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v47_0) S2560x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v47_1) S2560x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v62) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S20000x128 : Shape := ⟨2, ![20000, 128]⟩
abbrev S20000x3 : Shape := ⟨2, ![20000, 3]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x3 : Shape := ⟨2, ![640000, 3]⟩
abbrev S640000x128 : Shape := ⟨2, ![640000, 128]⟩
abbrev S640000x257 : Shape := ⟨2, ![640000, 257]⟩
abbrev S1x128 : Shape := ⟨2, ![1, 128]⟩
abbrev S1x1 : Shape := ⟨2, ![1, 1]⟩
abbrev S20000x256 : Shape := ⟨2, ![20000, 256]⟩

abbrev nBuf : Space → Nat
  | .hbm => 113
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S20000x3, .f32⟩
  | .hbm, ⟨2, _⟩ => ⟨S2x640000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x3, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x3, .f32⟩
  | .hbm, ⟨33, _⟩ => ⟨S640000x3, .f32⟩
  | .hbm, ⟨34, _⟩ => ⟨S640000x3, .f32⟩
  | .hbm, ⟨35, _⟩ => ⟨S_, .f32⟩
  | .hbm, ⟨36, _⟩ => ⟨S640000, .f32⟩
  | .hbm, ⟨37, _⟩ => ⟨S640000x1, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S640000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S640000x257, .f32⟩
  | .hbm, ⟨57, _⟩ => ⟨S640000x128, .f32⟩
  | .hbm, ⟨58, _⟩ => ⟨S1x128, .f32⟩
  | .hbm, ⟨59, _⟩ => ⟨S640000x128, .f32⟩
  | .hbm, ⟨60, _⟩ => ⟨S640000x128, .f32⟩
  | .hbm, ⟨61, _⟩ => ⟨S640000x128, .f32⟩
  | .hbm, ⟨62, _⟩ => ⟨S640000x128, .f32⟩
  | .hbm, ⟨63, _⟩ => ⟨S_, .f32⟩
  | .hbm, ⟨64, _⟩ => ⟨S640000x128, .f32⟩
  | .hbm, ⟨65, _⟩ => ⟨S640000x128, .f32⟩
  | .hbm, ⟨66, _⟩ => ⟨S_, .f32⟩
  | .hbm, ⟨67, _⟩ => ⟨S640000x128, .f32⟩
  | .hbm, ⟨68, _⟩ => ⟨S640000x128, .f32⟩
  | .hbm, ⟨69, _⟩ => ⟨S640000x128, .f32⟩
  | .hbm, ⟨70, _⟩ => ⟨S640000x128, .f32⟩
  | .hbm, ⟨71, _⟩ => ⟨S1x128, .f32⟩
  | .hbm, ⟨72, _⟩ => ⟨S640000x128, .f32⟩
  | .hbm, ⟨73, _⟩ => ⟨S640000x128, .f32⟩
  | .hbm, ⟨74, _⟩ => ⟨S640000x128, .f32⟩
  | .hbm, ⟨75, _⟩ => ⟨S640000x128, .f32⟩
  | .hbm, ⟨76, _⟩ => ⟨S_, .f32⟩
  | .hbm, ⟨77, _⟩ => ⟨S640000x128, .f32⟩
  | .hbm, ⟨78, _⟩ => ⟨S640000x128, .f32⟩
  | .hbm, ⟨79, _⟩ => ⟨S_, .f32⟩
  | .hbm, ⟨80, _⟩ => ⟨S640000x128, .f32⟩
  | .hbm, ⟨81, _⟩ => ⟨S640000x128, .f32⟩
  | .hbm, ⟨82, _⟩ => ⟨S640000x128, .f32⟩
  | .hbm, ⟨83, _⟩ => ⟨S640000x1, .f32⟩
  | .hbm, ⟨84, _⟩ => ⟨S1x1, .f32⟩
  | .hbm, ⟨85, _⟩ => ⟨S640000x1, .f32⟩
  | .hbm, ⟨86, _⟩ => ⟨S640000x1, .f32⟩
  | .hbm, ⟨87, _⟩ => ⟨S640000x1, .f32⟩
  | .hbm, ⟨88, _⟩ => ⟨S640000x3, .f32⟩
  | .hbm, ⟨89, _⟩ => ⟨S640000x3, .f32⟩
  | .hbm, ⟨90, _⟩ => ⟨S_, .f32⟩
  | .hbm, ⟨91, _⟩ => ⟨S20000x3, .f32⟩
  | .hbm, ⟨92, _⟩ => ⟨S640000x1, .i32⟩
  | .hbm, ⟨93, _⟩ => ⟨S20000x3, .f32⟩
  | .hbm, ⟨94, _⟩ => ⟨S20000x3, .f32⟩
  | .hbm, ⟨95, _⟩ => ⟨S_, .f32⟩
  | .hbm, ⟨96, _⟩ => ⟨S20000x128, .f32⟩
  | .hbm, ⟨97, _⟩ => ⟨S640000x1, .i32⟩
  | .hbm, ⟨98, _⟩ => ⟨S20000x128, .f32⟩
  | .hbm, ⟨99, _⟩ => ⟨S20000x256, .f32⟩
  | .hbm, ⟨100, _⟩ => ⟨S20000x128, .f32⟩
  | .hbm, ⟨101, _⟩ => ⟨S1x128, .f32⟩
  | .hbm, ⟨102, _⟩ => ⟨S20000x128, .f32⟩
  | .hbm, ⟨103, _⟩ => ⟨S20000x128, .f32⟩
  | .hbm, ⟨104, _⟩ => ⟨S20000x128, .f32⟩
  | .hbm, ⟨105, _⟩ => ⟨S20000x128, .f32⟩
  | .hbm, ⟨106, _⟩ => ⟨S_, .f32⟩
  | .hbm, ⟨107, _⟩ => ⟨S20000x128, .f32⟩
  | .hbm, ⟨108, _⟩ => ⟨S20000x128, .f32⟩
  | .hbm, ⟨109, _⟩ => ⟨S_, .f32⟩
  | .hbm, ⟨110, _⟩ => ⟨S20000x128, .f32⟩
  | .hbm, ⟨111, _⟩ => ⟨S20000x128, .f32⟩
  | .hbm, ⟨112, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_7 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_8 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_call2_v0 : Ref sig .tc := ⟨.hbm, 104, rfl⟩
abbrev main_call2_v1 : Ref sig .tc := ⟨.hbm, 105, rfl⟩
abbrev main_call2_cst : Ref sig .tc := ⟨.hbm, 106, rfl⟩
abbrev main_call2_v2 : Ref sig .tc := ⟨.hbm, 107, rfl⟩
abbrev main_call2_v3 : Ref sig .tc := ⟨.hbm, 108, rfl⟩
abbrev main_call2_cst_0 : Ref sig .tc := ⟨.hbm, 109, rfl⟩
abbrev main_call2_v4 : Ref sig .tc := ⟨.hbm, 110, rfl⟩
abbrev main_call2_v5 : Ref sig .tc := ⟨.hbm, 111, rfl⟩
abbrev main_v66 : Ref sig .tc := ⟨.hbm, 112, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  concatenates_S640000x128_S640000x128_S640000x1_S640000x257_d1 : Shape.Concatenates [S640000x128, S640000x128, S640000x1] S640000x257 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S640000x1_S640000x3_0_1 : S640000x1.BroadcastsInDim S640000x3 (![0, 1] : Fin 2 → Fin S640000x3.rank)
  bcast_S_S20000x3 : S_.BroadcastsInDim S20000x3 (![] : Fin 0 → Fin S20000x3.rank)
  bcast_S_S20000x128 : S_.BroadcastsInDim S20000x128 (![] : Fin 0 → Fin S20000x128.rank)
  concatenates_S20000x128_S20000x128_S20000x256_d1 : Shape.Concatenates [S20000x128, S20000x128] S20000x256 1
  bcast_S1x128_S20000x128_0_1 : S1x128.BroadcastsInDim S20000x128 (![0, 1] : Fin 2 → Fin S20000x128.rank)
  gather_S20000x3_S640000x1_S640000x3_1_0_n_n_0_1_13_wf : GatherDims.WF S20000x3 S640000x1 S640000x3 [1] [0] [] [0] [] 1 ![1, 3]
  gather_S20000x128_S640000x1_S640000x128_1_0_n_n_0_1_1128_wf : GatherDims.WF S20000x128 S640000x1 S640000x128 [1] [0] [] [0] [] 1 ![1, 128]
  dot_S640000x257_S257x128_S640000x128_1_0_0_1_n_n_wf : DotDims.WF S640000x257 S257x128 S640000x128 [1] [0] [0] [1] [] []
  dot_S640000x128_S128x128_S640000x128_1_0_0_1_n_n_wf : DotDims.WF S640000x128 S128x128 S640000x128 [1] [0] [0] [1] [] []
  dot_S640000x128_S128x1_S640000x1_1_0_0_1_n_n_wf : DotDims.WF S640000x128 S128x1 S640000x1 [1] [0] [0] [1] [] []
  scatter_S20000x3_S640000x1_S640000x3_1_0_0_1_wf : ScatterDims.WF S20000x3 S640000x1 S640000x3 [1] [0] [0] 1
  scatter_S20000x128_S640000x1_S640000x128_1_0_0_1_wf : ScatterDims.WF S20000x128 S640000x1 S640000x128 [1] [0] [0] 1
  dot_S20000x256_S256x128_S20000x128_1_0_0_1_n_n_wf : DotDims.WF S20000x256 S256x128 S20000x128 [1] [0] [0] [1] [] []

variable [Facts₀]

def gather_S20000x3_S640000x1_S640000x3_1_0_n_n_0_1_13 : GatherDims S20000x3 S640000x1 S640000x3 where
  offsetDims := [1]
  collapsedSliceDims := [0]
  operandBatchingDims := []
  startIndicesBatchingDims := []
  startIndexMap := [0]
  indexVectorDim := 1
  sliceSizes := ![1, 3]
  wf := gather_S20000x3_S640000x1_S640000x3_1_0_n_n_0_1_13_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x257_S257x128_S640000x128_1_0_0_1_n_n : DotDims S640000x257 S257x128 S640000x128 where
  lhsContracting := [1]
  rhsContracting := [0]
  lhsNonContracting := [0]
  rhsNonContracting := [1]
  lhsBatch := []
  rhsBatch := []
  wf := dot_S640000x257_S257x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S20000x3_S640000x1_S640000x3_1_0_0_1 : ScatterDims S20000x3 S640000x1 S640000x3 where
  updateWindowDims := [1]
  insertedWindowDims := [0]
  scatterDimsToOperandDims := [0]
  indexVectorDim := 1
  wf := scatter_S20000x3_S640000x1_S640000x3_1_0_0_1_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf

class Facts : Prop extends Facts₀ where

variable [Facts]
-- ==== Proof.LibJoinRead.lean ====
/-
  Reading a line of host operations through a join.

  The one-pass reading of a line of host operations (each operation's result at its own buffer, any other buffer as it
  was) does not look inside the list of pieces of a concatenation: a piece sits in a pair with its shape. Restating a
  join of two or of three pieces as a function that takes the pieces as plain arguments lets the same pass go on into
  them; the restatement holds by definition, so a term read this way is still, by unfolding, the join it came from.
-/
import Idealize.ShloMosaic.PureOps.ShapeOps

namespace Cert.Lib.JoinRead

open Idealize.ShloMosaic

variable {α : Type}

/-- A join of two pieces along an axis, the pieces as plain arguments. -/
def join2 (t : Shape) (a : Fin t.rank) (s₁ s₂ : Shape) (h : Shape.Concatenates [s₁, s₂] t a)
    (x₁ : s₁.Idx → α) (x₂ : s₂.Idx → α) : t.Idx → α := concatenate t a [⟨s₁, x₁⟩, ⟨s₂, x₂⟩] h

/-- A join of three pieces along an axis, the pieces as plain arguments. -/
def join3 (t : Shape) (a : Fin t.rank) (s₁ s₂ s₃ : Shape) (h : Shape.Concatenates [s₁, s₂, s₃] t a)
    (x₁ : s₁.Idx → α) (x₂ : s₂.Idx → α) (x₃ : s₃.Idx → α) : t.Idx → α :=
  concatenate t a [⟨s₁, x₁⟩, ⟨s₂, x₂⟩, ⟨s₃, x₃⟩] h

/-- A concatenation of two pieces is their join. -/
theorem concat2_eq (t : Shape) (a : Fin t.rank) (s₁ s₂ : Shape) (h : Shape.Concatenates [s₁, s₂] t a)
    (x₁ : s₁.Idx → α) (x₂ : s₂.Idx → α) : concatenate t a [⟨s₁, x₁⟩, ⟨s₂, x₂⟩] h = join2 t a s₁ s₂ h x₁ x₂ := rfl

/-- A concatenation of three pieces is their join. -/
theorem concat3_eq (t : Shape) (a : Fin t.rank) (s₁ s₂ s₃ : Shape) (h : Shape.Concatenates [s₁, s₂, s₃] t a)
    (x₁ : s₁.Idx → α) (x₂ : s₂.Idx → α) (x₃ : s₃.Idx → α) :
    concatenate t a [⟨s₁, x₁⟩, ⟨s₂, x₂⟩, ⟨s₃, x₃⟩] h = join3 t a s₁ s₂ s₃ h x₁ x₂ x₃ := rfl

end Cert.Lib.JoinRead
-- ==== Proof.HostValue.lean ====
/-
  The arrays the two kernels are entered with, and the two results, as terms of the launch arrays.

  Before the edge kernel the host takes the two rows of the edge list (source and destination node of each edge), wraps
  negative node numbers once by the number of nodes, gathers the positions and the (narrowed) features of both endpoints,
  forms the relative position and its squared length, and cuts the first edge layer's weight into its three groups of
  rows. Between the kernels it scales the relative positions by the coordinate weights and adds them up per source node
  onto the positions, adds the messages up per source node, and cuts the node layer's weight into its two groups of rows.
-/
import proofs.«147072_j16587163698061_1_alg».proof.Proof.Gen.KernelIdeal.Frame
import Idealize.ShloMosaic.PureOps.Ideal

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

section Stages

variable {F : FTy → Type} [FloatOps F]

/-- Each edge's source node: row 0 of the edge list. -/
def srcNode (e2 : IVec S2x640000 32) : IVec S640000 32 :=
  shapeCast S640000 (extractStridedSlice S1x640000 ![0, 0] e2 slices_S2x640000_S1x640000_0_0) shapeCasts_S1x640000_S640000

/-- Each edge's destination node: row 1 of the edge list. -/
def dstNode (e2 : IVec S2x640000 32) : IVec S640000 32 :=
  shapeCast S640000 (extractStridedSlice S1x640000 ![1, 0] e2 slices_S2x640000_S1x640000_1_0) shapeCasts_S1x640000_S640000

/-- A vector of node numbers as an index column, a negative number first moved up by the number of nodes. -/
def wrapCol (r : IVec S640000 32) : IVec S640000x1 32 :=
  broadcastInDim S640000x1 ![0] bcast_S640000_S640000x1_0
    (select (cmpi .slt r (broadcastInDim S640000 ![] bcast_S_S640000 (constantI S_ 32 0#32)))
      (addi r (broadcastInDim S640000 ![] bcast_S_S640000 (constantI S_ 32 20000#32))) r)

/-- A vector of node numbers as an index column, as it is. -/
def plainCol (r : IVec S640000 32) : IVec S640000x1 32 := broadcastInDim S640000x1 ![0] bcast_S640000_S640000x1_0 r

/-- Each edge's relative position: source position minus destination position. -/
def relPos (p : FVec F S20000x3 .f32) (e2 : IVec S2x640000 32) : FVec F S640000x3 .f32 :=
  subf (Host.gather gather_S20000x3_S640000x1_S640000x3_1_0_n_n_0_1_13 p (wrapCol (srcNode e2)))
    (Host.gather gather_S20000x3_S640000x1_S640000x3_1_0_n_n_0_1_13 p (wrapCol (dstNode e2)))

/-- Each edge's squared length, as a column. -/
def sqLen (p : FVec F S20000x3 .f32) (e2 : IVec S2x640000 32) : FVec F S640000x1 .f32 :=
  broadcastInDim S640000x1 ![0] bcast_S640000_S640000x1_0
    (Host.reduceAdd (mulf (relPos p e2) (relPos p e2)) (constant S_ .f32 0x00000000#32) reducesTo_S640000x3_S640000_d1 h_S_)

end Stages

variable (m : (ℓ : Loc nD τ sig) → Buf (Elt Ideal) ℓ) (ρ : Dev nD → PrngReg) (c : Dev nD)

/-- The launch arrays, at their literal types. -/
abbrev aX : FVec Ideal S20000x128 .f32 := m ((c : Thread nD τ).loc main_arg0)
abbrev aPos : FVec Ideal S20000x3 .f32 := m ((c : Thread nD τ).loc main_arg1)
abbrev aE : IVec S2x640000 32 := m ((c : Thread nD τ).loc main_arg2)
abbrev aW1 : FVec Ideal S257x128 .f32 := m ((c : Thread nD τ).loc main_arg3)
abbrev aB1 : FVec Ideal S128 .f32 := m ((c : Thread nD τ).loc main_arg4)
abbrev aW2 : FVec Ideal S128x128 .f32 := m ((c : Thread nD τ).loc main_arg5)
abbrev aB2 : FVec Ideal S128 .f32 := m ((c : Thread nD τ).loc main_arg6)
abbrev aWn : FVec Ideal S256x128 .f32 := m ((c : Thread nD τ).loc main_arg7)
abbrev aBn : FVec Ideal S128 .f32 := m ((c : Thread nD τ).loc main_arg8)
abbrev aWc : FVec Ideal S128x1 .f32 := m ((c : Thread nD τ).loc main_arg9)
abbrev aBc : FVec Ideal S1 .f32 := m ((c : Thread nD τ).loc main_arg10)

/-! ## The edge kernel's arrays at its entry -/

set_option maxHeartbeats 2000000 in
/-- The narrowed features of each edge's source node. -/
theorem v29_eq : (V1 m ρ c main_v29 : FVec Ideal S640000x128 .bf16) = Host.gather gather_S20000x128_S640000x1_S640000x128_1_0_n_n_0_1_1128 (truncf .bf16 (aX m c) bitsLt_bf16_f32) (wrapCol (srcNode (aE m c))) := by
  show StableHlo.after hostOps0 (W0 m ρ c) (Proc.devRef .tc main_v29) = _
  after_results_simp <;> rfl

set_option maxHeartbeats 2000000 in
/-- The narrowed features of each edge's destination node. -/
theorem v36_eq : (V1 m ρ c main_v36 : FVec Ideal S640000x128 .bf16) = Host.gather gather_S20000x128_S640000x1_S640000x128_1_0_n_n_0_1_1128 (truncf .bf16 (aX m c) bitsLt_bf16_f32) (wrapCol (dstNode (aE m c))) := by
  show StableHlo.after hostOps0 (W0 m ρ c) (Proc.devRef .tc main_v36) = _
  after_results_simp <;> rfl

set_option maxHeartbeats 2000000 in
/-- Each edge's squared length. -/
theorem v21_eq : (V1 m ρ c main_v21 : FVec Ideal S640000x1 .f32) = sqLen (F := Ideal) (aPos m c) (aE m c) := by
  show StableHlo.after hostOps0 (W0 m ρ c) (Proc.devRef .tc main_v21) = _
  after_results_simp <;> rfl

set_option maxHeartbeats 2000000 in
/-- Rows 0 … 127 of the first edge weight, narrowed. -/
theorem v38_eq : (V1 m ρ c main_v38 : FVec Ideal S128x128 .bf16) = truncf .bf16 (extractStridedSlice S128x128 ![0, 0] (aW1 m c) slices_S257x128_S128x128_0_0) bitsLt_bf16_f32 := by
  show StableHlo.after hostOps0 (W0 m ρ c) (Proc.devRef .tc main_v38) = _
  after_results_simp <;> rfl

set_option maxHeartbeats 2000000 in
/-- Rows 128 … 255 of the first edge weight, narrowed. -/
theorem v40_eq : (V1 m ρ c main_v40 : FVec Ideal S128x128 .bf16) = truncf .bf16 (extractStridedSlice S128x128 ![128, 0] (aW1 m c) slices_S257x128_S128x128_128_0) bitsLt_bf16_f32 := by
  show StableHlo.after hostOps0 (W0 m ρ c) (Proc.devRef .tc main_v40) = _
  after_results_simp <;> rfl

set_option maxHeartbeats 2000000 in
/-- Row 256 of the first edge weight. -/
theorem v41_eq : (V1 m ρ c main_v41 : FVec Ideal S1x128 .f32) = extractStridedSlice S1x128 ![256, 0] (aW1 m c) slices_S257x128_S1x128_256_0 := by
  show StableHlo.after hostOps0 (W0 m ρ c) (Proc.devRef .tc main_v41) = _
  after_results_simp <;> rfl

set_option maxHeartbeats 2000000 in
/-- The first edge bias as one row. -/
theorem v42_eq : (V1 m ρ c main_v42 : FVec Ideal S1x128 .f32) = shapeCast S1x128 (aB1 m c) shapeCasts_S128_S1x128 := by
  show StableHlo.after hostOps0 (W0 m ρ c) (Proc.devRef .tc main_v42) = _
  after_results_simp <;> rfl

set_option maxHeartbeats 2000000 in
/-- The second edge weight, narrowed. -/
theorem v43_eq : (V1 m ρ c main_v43 : FVec Ideal S128x128 .bf16) = truncf .bf16 (aW2 m c) bitsLt_bf16_f32 := by
  show StableHlo.after hostOps0 (W0 m ρ c) (Proc.devRef .tc main_v43) = _
  after_results_simp <;> rfl

set_option maxHeartbeats 2000000 in
/-- The second edge bias as one row. -/
theorem v44_eq : (V1 m ρ c main_v44 : FVec Ideal S1x128 .f32) = shapeCast S1x128 (aB2 m c) shapeCasts_S128_S1x128 := by
  show StableHlo.after hostOps0 (W0 m ρ c) (Proc.devRef .tc main_v44) = _
  after_results_simp <;> rfl

set_option maxHeartbeats 2000000 in
/-- The coordinate weight, narrowed. -/
theorem v45_eq : (V1 m ρ c main_v45 : FVec Ideal S128x1 .bf16) = truncf .bf16 (aWc m c) bitsLt_bf16_f32 := by
  show StableHlo.after hostOps0 (W0 m ρ c) (Proc.devRef .tc main_v45) = _
  after_results_simp <;> rfl

set_option maxHeartbeats 2000000 in
/-- The coordinate bias as a one-by-one matrix. -/
theorem v46_eq : (V1 m ρ c main_v46 : FVec Ideal S1x1 .f32) = shapeCast S1x1 (aBc m c) shapeCasts_S1_S1x1 := by
  show StableHlo.after hostOps0 (W0 m ρ c) (Proc.devRef .tc main_v46) = _
  after_results_simp <;> rfl

/-! ## What the first stretch leaves for the second -/

set_option maxHeartbeats 2000000 in
/-- Each edge's relative position. -/
theorem v18_eq : (V1 m ρ c main_v18 : FVec Ideal S640000x3 .f32) = relPos (F := Ideal) (aPos m c) (aE m c) := by
  show StableHlo.after hostOps0 (W0 m ρ c) (Proc.devRef .tc main_v18) = _
  after_results_simp <;> rfl

set_option maxHeartbeats 2000000 in
/-- Each edge's source node. -/
theorem v1_eq : (V1 m ρ c main_v1 : IVec S640000 32) = srcNode (aE m c) := by
  show StableHlo.after hostOps0 (W0 m ρ c) (Proc.devRef .tc main_v1) = _
  after_results_simp <;> rfl

set_option maxHeartbeats 2000000 in
/-- The features are as launched. -/
theorem arg0_eq : (V1 m ρ c main_arg0 : FVec Ideal S20000x128 .f32) = aX m c := by
  show StableHlo.after hostOps0 (W0 m ρ c) (Proc.devRef .tc main_arg0) = _
  after_results_simp <;> rfl

set_option maxHeartbeats 2000000 in
/-- The positions are as launched. -/
theorem arg1_eq : (V1 m ρ c main_arg1 : FVec Ideal S20000x3 .f32) = aPos m c := by
  show StableHlo.after hostOps0 (W0 m ρ c) (Proc.devRef .tc main_arg1) = _
  after_results_simp <;> rfl

set_option maxHeartbeats 2000000 in
/-- The node weight is as launched. -/
theorem arg7_eq : (V1 m ρ c main_arg7 : FVec Ideal S256x128 .f32) = aWn m c := by
  show StableHlo.after hostOps0 (W0 m ρ c) (Proc.devRef .tc main_arg7) = _
  after_results_simp <;> rfl

set_option maxHeartbeats 2000000 in
/-- The node bias is as launched. -/
theorem arg8_eq : (V1 m ρ c main_arg8 : FVec Ideal S128 .f32) = aBn m c := by
  show StableHlo.after hostOps0 (W0 m ρ c) (Proc.devRef .tc main_arg8) = _
  after_results_simp <;> rfl

/-! ## The second stretch, from what the edge kernel leaves -/

/-- What the edge kernel leaves, at the literal types. -/
abbrev w2X : FVec Ideal S20000x128 .f32 := W2 m ρ c (Proc.devRef .tc main_arg0)
abbrev w2Pos : FVec Ideal S20000x3 .f32 := W2 m ρ c (Proc.devRef .tc main_arg1)
abbrev w2Src : IVec S640000 32 := W2 m ρ c (Proc.devRef .tc main_v1)
abbrev w2Rel : FVec Ideal S640000x3 .f32 := W2 m ρ c (Proc.devRef .tc main_v18)
abbrev w2Msg : FVec Ideal S640000x128 .bf16 := W2 m ρ c (Proc.devRef .tc main_v47_0)
abbrev w2Cw : FVec Ideal S640000x1 .f32 := W2 m ρ c (Proc.devRef .tc main_v47_1)
abbrev w2Wn : FVec Ideal S256x128 .f32 := W2 m ρ c (Proc.devRef .tc main_arg7)
abbrev w2Bn : FVec Ideal S128 .f32 := W2 m ρ c (Proc.devRef .tc main_arg8)

set_option maxHeartbeats 2000000 in
/-- The node kernel's features. -/
theorem n_x_eq : (V3 m ρ c main_arg0 : FVec Ideal S20000x128 .f32) = w2X m ρ c := by
  show StableHlo.after hostOps1 (W2 m ρ c) (Proc.devRef .tc main_arg0) = _
  after_results_simp <;> rfl

set_option maxHeartbeats 2000000 in
/-- The messages added up per source node. -/
theorem n_agg_eq : (V3 m ρ c main_v57 : FVec Ideal S20000x128 .f32) = Host.scatterAdd scatter_S20000x128_S640000x1_S640000x128_1_0_0_1 (broadcastInDim S20000x128 ![] bcast_S_S20000x128 (constant (F := Ideal) S_ .f32 0x00000000#32)) (plainCol (w2Src m ρ c)) (extf .f32 (w2Msg m ρ c) bitsLt_bf16_f32) := by
  show StableHlo.after hostOps1 (W2 m ρ c) (Proc.devRef .tc main_v57) = _
  after_results_simp <;> rfl

set_option maxHeartbeats 2000000 in
/-- Rows 0 … 127 of the node weight, narrowed. -/
theorem n_wa_eq : (V3 m ρ c main_v59 : FVec Ideal S128x128 .bf16) = truncf .bf16 (extractStridedSlice S128x128 ![0, 0] (w2Wn m ρ c) slices_S256x128_S128x128_0_0) bitsLt_bf16_f32 := by
  show StableHlo.after hostOps1 (W2 m ρ c) (Proc.devRef .tc main_v59) = _
  after_results_simp <;> rfl

set_option maxHeartbeats 2000000 in
/-- Rows 128 … 255 of the node weight, narrowed. -/
theorem n_wb_eq : (V3 m ρ c main_v61 : FVec Ideal S128x128 .bf16) = truncf .bf16 (extractStridedSlice S128x128 ![128, 0] (w2Wn m ρ c) slices_S256x128_S128x128_128_0) bitsLt_bf16_f32 := by
  show StableHlo.after hostOps1 (W2 m ρ c) (Proc.devRef .tc main_v61) = _
  after_results_simp <;> rfl

set_option maxHeartbeats 2000000 in
/-- The node bias as one row. -/
theorem n_bn_eq : (V3 m ρ c main_v62 : FVec Ideal S1x128 .f32) = shapeCast S1x128 (w2Bn m ρ c) shapeCasts_S128_S1x128 := by
  show StableHlo.after hostOps1 (W2 m ρ c) (Proc.devRef .tc main_v62) = _
  after_results_simp <;> rfl

set_option maxHeartbeats 2000000 in
/-- The new positions: the scaled relative positions added up per source node onto the positions. -/
theorem pos_eq : (V3 m ρ c main_v53 : FVec Ideal S20000x3 .f32) = addf (w2Pos m ρ c) (Host.scatterAdd scatter_S20000x3_S640000x1_S640000x3_1_0_0_1 (broadcastInDim S20000x3 ![] bcast_S_S20000x3 (constant (F := Ideal) S_ .f32 0x00000000#32)) (plainCol (w2Src m ρ c)) (mulf (w2Rel m ρ c) (broadcastInDim S640000x3 ![0, 1] bcast_S640000x1_S640000x3_0_1 (w2Cw m ρ c)))) := by
  show StableHlo.after hostOps1 (W2 m ρ c) (Proc.devRef .tc main_v53) = _
  after_results_simp <;> rfl

/-! ## What the edge kernel leaves in the buffers it does not write -/

theorem w2X_eq : w2X m ρ c = aX m c := (W2_of_ne m ρ c main_arg0 (by decide)).trans (arg0_eq m ρ c)
theorem w2Pos_eq : w2Pos m ρ c = aPos m c := (W2_of_ne m ρ c main_arg1 (by decide)).trans (arg1_eq m ρ c)
theorem w2Src_eq : w2Src m ρ c = srcNode (aE m c) := (W2_of_ne m ρ c main_v1 (by decide)).trans (v1_eq m ρ c)
theorem w2Rel_eq : w2Rel m ρ c = relPos (F := Ideal) (aPos m c) (aE m c) := (W2_of_ne m ρ c main_v18 (by decide)).trans (v18_eq m ρ c)
theorem w2Wn_eq : w2Wn m ρ c = aWn m c := (W2_of_ne m ρ c main_arg7 (by decide)).trans (arg7_eq m ρ c)
theorem w2Bn_eq : w2Bn m ρ c = aBn m c := (W2_of_ne m ρ c main_arg8 (by decide)).trans (arg8_eq m ρ c)

end Cert.KernelIdeal.Val

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.Spec.lean ====
/-
  One message-passing layer on a graph with coordinates, row by row, on the extended reals.

  For an edge with endpoint features  xr, xc  (128 numbers each) and squared length  d , the first edge layer is affine in
  the 257 numbers (xr, xc, d): its weight matrix has 257 rows, the first 128 for xr, the next 128 for xc, the last for d.
  Adding the three groups separately, or adding all 257 products in one sum, is the same number: addition of
  extended reals is commutative and associative (only that is used; nothing here needs finiteness). The same holds for
  the node layer, affine in the 256 numbers (x, agg). The activation is  x ↦ x · logistic x .
-/
import Idealize.ShloMosaic.PureOps.Ideal
import Mathlib.Algebra.BigOperators.Fin

noncomputable section

open scoped BigOperators

namespace Cert.Egnn

open Idealize.ShloMosaic

/-- The activation  x · logistic x . -/
def silu (x : EReal) : EReal := x * Ideal.logistic x

/-- First edge layer before the activation, at output unit `v`: the products with the xr-rows, the xc-rows and the
    d-row of the weight, then the bias. -/
def hidPre (xr xc : Fin 128 → EReal) (d : EReal) (wa wb : Fin 128 → Fin 128 → EReal) (wd b1 : Fin 128 → EReal)
    (v : Fin 128) : EReal :=
  (∑ q : Fin 128, xr q * wa q v) + (∑ q : Fin 128, xc q * wb q v) + d * wd v + b1 v

/-- The edge's message: two layers, each followed by the activation. -/
def msgRow (xr xc : Fin 128 → EReal) (d : EReal) (wa wb : Fin 128 → Fin 128 → EReal) (wd b1 : Fin 128 → EReal)
    (w2 : Fin 128 → Fin 128 → EReal) (b2 : Fin 128 → EReal) (v : Fin 128) : EReal :=
  silu ((∑ q : Fin 128, silu (hidPre xr xc d wa wb wd b1 q) * w2 q v) + b2 v)

/-- The edge's coordinate weight: one more affine map to a single number, then tanh. -/
def coordRow (msg : Fin 128 → EReal) (wc : Fin 128 → EReal) (bc : EReal) : EReal :=
  Ideal.tanh ((∑ q : Fin 128, msg q * wc q) + bc)

/-- The node layer: affine in (x, agg), the x-rows and the agg-rows of the weight summed separately, then the
    activation. -/
def nodeRow (x agg : Fin 128 → EReal) (na nb : Fin 128 → Fin 128 → EReal) (bn : Fin 128 → EReal) (v : Fin 128) : EReal :=
  silu ((∑ q : Fin 128, x q * na q v) + (∑ q : Fin 128, agg q * nb q v) + bn v)

/-- A sum over 257 = 128 + 128 + 1 terms is the sum of its first 128, its next 128, and its last. -/
theorem sum_257 {M : Type*} [AddCommMonoid M] (f : Fin 257 → M) :
    ∑ k : Fin 257, f k
      = (∑ q : Fin 128, f ⟨q.val, by omega⟩) + (∑ q : Fin 128, f ⟨128 + q.val, by omega⟩) + f ⟨256, by omega⟩ := by
  have h1 : ∑ k : Fin 257, f k = ∑ k : Fin 256, f (Fin.castSucc k) + f (Fin.last 256) := Fin.sum_univ_castSucc f
  have h2 : ∑ k : Fin 256, f (Fin.castSucc k)
      = ∑ q : Fin 128, f (Fin.castSucc (Fin.castAdd 128 q)) + ∑ q : Fin 128, f (Fin.castSucc (Fin.natAdd 128 q)) :=
    Fin.sum_univ_add (fun k : Fin (128 + 128) => f (Fin.castSucc k))
  rw [h1, h2]
  rfl

/-- A sum over 256 = 128 + 128 terms is the sum of its first 128 and its next 128. -/
theorem sum_256 {M : Type*} [AddCommMonoid M] (f : Fin 256 → M) :
    ∑ k : Fin 256, f k = (∑ q : Fin 128, f ⟨q.val, by omega⟩) + (∑ q : Fin 128, f ⟨128 + q.val, by omega⟩) := by
  have h2 : ∑ k : Fin 256, f k = ∑ q : Fin 128, f (Fin.castAdd 128 q) + ∑ q : Fin 128, f (Fin.natAdd 128 q) :=
    Fin.sum_univ_add (fun k : Fin (128 + 128) => f k)
  rw [h2]
  rfl

end Cert.Egnn

end
-- ==== Proof.Layers.lean ====
/-
  The vector unit's layers read at one entry, at the ideal values.

  A block of  n  rows goes through an affine layer as a product into a zero accumulator plus a one-row bias repeated down
  the rows; a per-row scalar (a column [n, 1]) is repeated along the lanes, a one-row array [1, 128] down the rows. At entry
  (r, v) each of these reads only row r of the block, so a layer applied to a block of rows is the row function
  (Cert.Egnn) applied to each of its rows. Narrowing to a shorter float format is the identity on extended reals.
-/
import proofs.«147072_j16587163698061_1_alg».proof.Proof.LibDotRowsCols
import proofs.«147072_j16587163698061_1_alg».proof.Proof.Spec
import Idealize.ShloMosaic.Lib.Pipeline.Value

noncomputable section

open scoped BigOperators

namespace Cert.Egnn

open Idealize.ShloMosaic Idealize.ShloMosaic.ValueIdx Cert.Lib.DotRowsCols

variable {α : Type} {n b : Nat}

/-- A one-row array repeated down the rows reads, at (p, c), the row's entry c. -/
theorem bcast_row_apply (x : (⟨2, ![1, b]⟩ : Shape).Idx → α) (h : (⟨2, ![1, b]⟩ : Shape).Broadcasts ⟨2, ![n, b]⟩)
    (p : Fin n) (c : Fin b) : broadcastTo ⟨2, ![n, b]⟩ x h (ix2 p c) = x (ix2 (0 : Fin 1) c) := by
  refine broadcastTo_apply x h (ix2 p c) (ix2 (0 : Fin 1) c) fun ax => ?_
  match ax with
  | ⟨0, _⟩ => rfl
  | ⟨1, _⟩ =>
    show c.val = if b = 1 then 0 else c.val
    split
    · have := c.isLt; omega
    · rfl

/-- A column repeated along the lanes reads, at (p, c), the column's entry of row p. -/
theorem bcast_col_apply (x : (⟨2, ![n, 1]⟩ : Shape).Idx → α) (h : (⟨2, ![n, 1]⟩ : Shape).Broadcasts ⟨2, ![n, b]⟩)
    (p : Fin n) (c : Fin b) : broadcastTo ⟨2, ![n, b]⟩ x h (ix2 p c) = x (ix2 p (0 : Fin 1)) := by
  refine broadcastTo_apply x h (ix2 p c) (ix2 p (0 : Fin 1)) fun ax => ?_
  match ax with
  | ⟨0, _⟩ =>
    show p.val = if n = 1 then 0 else p.val
    split
    · have := p.isLt; omega
    · rfl
  | ⟨1, _⟩ => rfl

/-- A single number repeated down a column reads that number everywhere. -/
theorem bcast_unit_apply (x : (⟨2, ![1, 1]⟩ : Shape).Idx → α) (h : (⟨2, ![1, 1]⟩ : Shape).Broadcasts ⟨2, ![n, 1]⟩)
    (p : Fin n) (u : Fin 1) : broadcastTo ⟨2, ![n, 1]⟩ x h (ix2 p u) = x (ix2 (0 : Fin 1) (0 : Fin 1)) := by
  refine broadcastTo_apply x h (ix2 p u) (ix2 (0 : Fin 1) (0 : Fin 1)) fun ax => ?_
  match ax with
  | ⟨0, _⟩ => rfl
  | ⟨1, _⟩ => rfl

/-- Rows  off … off + a − 1  cut out of a matrix: row q of the cut is row  off + q  of the matrix. -/
theorem slice_rows_apply {N a : Nat} (off : Nat) (x : (⟨2, ![N, b]⟩ : Shape).Idx → α)
    (h : (⟨2, ![N, b]⟩ : Shape).Slices ![off, 0] ⟨2, ![a, b]⟩) (q : Fin a) (u : Fin b) (hq : off + q.val < N) :
    extractStridedSlice ⟨2, ![a, b]⟩ ![off, 0] x h (ix2 q u) = x (ix2 ⟨off + q.val, hq⟩ u) :=
  extractStridedSlice_apply ![off, 0] x h (ix2 q u) (ix2 ⟨off + q.val, hq⟩ u) fun ax => by
    match ax with
    | ⟨0, _⟩ => rfl
    | ⟨1, _⟩ => exact (Nat.zero_add _).symm

/-- The first  a  rows cut out of a matrix: row q of the cut is row q of the matrix. -/
theorem slice_top_apply {N a : Nat} (x : (⟨2, ![N, b]⟩ : Shape).Idx → α)
    (h : (⟨2, ![N, b]⟩ : Shape).Slices ![0, 0] ⟨2, ![a, b]⟩) (q : Fin a) (u : Fin b) (hq : q.val < N) :
    extractStridedSlice ⟨2, ![a, b]⟩ ![0, 0] x h (ix2 q u) = x (ix2 ⟨q.val, hq⟩ u) :=
  extractStridedSlice_apply ![0, 0] x h (ix2 q u) (ix2 ⟨q.val, hq⟩ u) fun ax => by
    match ax with
    | ⟨0, _⟩ => exact (Nat.zero_add _).symm
    | ⟨1, _⟩ => exact (Nat.zero_add _).symm

/-- A vector made a one-row matrix reads, at (0, u), the vector's entry u. -/
theorem row_of_vec_apply (x : (⟨1, ![b]⟩ : Shape).Idx → α) (h : (⟨1, ![b]⟩ : Shape).ShapeCasts ⟨2, ![1, b]⟩) (u : Fin b) :
    shapeCast ⟨2, ![1, b]⟩ x h (ix2 (0 : Fin 1) u) = x (ix1 u) :=
  shapeCast_apply x h _ _ (by
    rw [Shape.rowMajor_val_two, Shape.rowMajor_val_one]
    show u.val = 0 * b + u.val
    omega)

/-- The activation of a block, at an entry. -/
theorem silu_apply {s : Shape} {φ : FTy} (a : FVec Ideal s φ) (i : s.Idx) : mulf a (logistic a) i = silu (a i) := rfl

/-- tanh of a block, at an entry. -/
theorem tanh_apply {s : Shape} {φ : FTy} (a : FVec Ideal s φ) (i : s.Idx) : tanh a i = Ideal.tanh (a i) := rfl

section Layers

variable {d : DotDims ⟨2, ![n, 128]⟩ ⟨2, ![128, 128]⟩ ⟨2, ![n, 128]⟩}

/-- The first edge layer before its activation, at entry (r, v): two products into zero, the per-row scalar times a
    one-row weight, and the one-row bias. -/
theorem hid_apply (hd : RowsCols d) (xr xc : FVec Ideal ⟨2, ![n, 128]⟩ .bf16) (dd : FVec Ideal ⟨2, ![n, 1]⟩ .f32)
    (wa wb : FVec Ideal ⟨2, ![128, 128]⟩ .bf16) (wd b1 : FVec Ideal ⟨2, ![1, 128]⟩ .f32)
    (h1 : (⟨2, ![n, 1]⟩ : Shape).Broadcasts ⟨2, ![n, 128]⟩) (h2 : (⟨2, ![1, 128]⟩ : Shape).Broadcasts ⟨2, ![n, 128]⟩)
    (r : Fin n) (v : Fin 128) :
    addf (addf (addf (matmul (F := Ideal) d none xr wa (constant ⟨2, ![n, 128]⟩ .f32 0x00000000#32))
          (matmul (F := Ideal) d none xc wb (constant ⟨2, ![n, 128]⟩ .f32 0x00000000#32)))
        (mulf (broadcastTo ⟨2, ![n, 128]⟩ dd h1) (broadcastTo ⟨2, ![n, 128]⟩ wd h2)))
      (broadcastTo ⟨2, ![n, 128]⟩ b1 h2) (ix2 r v)
      = hidPre (fun q => xr (ix2 r q)) (fun q => xc (ix2 r q)) (dd (ix2 r (0 : Fin 1)))
          (fun q u => wa (ix2 q u)) (fun q u => wb (ix2 q u)) (fun u => wd (ix2 (0 : Fin 1) u)) (fun u => b1 (ix2 (0 : Fin 1) u)) v := by
  rw [addf_apply, addf_apply, addf_apply, mulf_apply, hd.matmul_zero_apply, hd.matmul_zero_apply, bcast_col_apply,
    bcast_row_apply, bcast_row_apply]
  rfl

/-- An activated block through one more affine layer and the activation, at entry (r, v). -/
theorem act_layer_apply (hd : RowsCols d) (hp : FVec Ideal ⟨2, ![n, 128]⟩ .f32) (w2 : FVec Ideal ⟨2, ![128, 128]⟩ .bf16)
    (b2 : FVec Ideal ⟨2, ![1, 128]⟩ .f32) (h2 : (⟨2, ![1, 128]⟩ : Shape).Broadcasts ⟨2, ![n, 128]⟩)
    (hlt : FTy.bits .bf16 < FTy.bits .f32) (r : Fin n) (v : Fin 128) :
    mulf (addf (matmul (F := Ideal) d none (truncf .bf16 (mulf hp (logistic hp)) hlt) w2 (constant ⟨2, ![n, 128]⟩ .f32 0x00000000#32))
          (broadcastTo ⟨2, ![n, 128]⟩ b2 h2))
      (logistic (addf (matmul (F := Ideal) d none (truncf .bf16 (mulf hp (logistic hp)) hlt) w2 (constant ⟨2, ![n, 128]⟩ .f32 0x00000000#32))
          (broadcastTo ⟨2, ![n, 128]⟩ b2 h2))) (ix2 r v)
      = silu ((∑ q : Fin 128, silu (hp (ix2 r q)) * w2 (ix2 q v)) + b2 (ix2 (0 : Fin 1) v)) := by
  have e : addf (matmul (F := Ideal) d none (truncf .bf16 (mulf hp (logistic hp)) hlt) w2 (constant ⟨2, ![n, 128]⟩ .f32 0x00000000#32))
          (broadcastTo ⟨2, ![n, 128]⟩ b2 h2) (ix2 r v)
      = (∑ q : Fin 128, silu (hp (ix2 r q)) * w2 (ix2 q v)) + b2 (ix2 (0 : Fin 1) v) := by
    rw [addf_apply, hd.matmul_zero_apply, bcast_row_apply]
    rfl
  rw [silu_apply, e]

/-- The node layer at entry (r, v): two products into zero (the operands narrowed first), the one-row bias, the
    activation. -/
theorem node_apply (hd : RowsCols d) (x agg : FVec Ideal ⟨2, ![n, 128]⟩ .f32) (na nb : FVec Ideal ⟨2, ![128, 128]⟩ .bf16)
    (bn : FVec Ideal ⟨2, ![1, 128]⟩ .f32) (h2 : (⟨2, ![1, 128]⟩ : Shape).Broadcasts ⟨2, ![n, 128]⟩)
    (hlt : FTy.bits .bf16 < FTy.bits .f32) (r : Fin n) (v : Fin 128) :
    mulf (addf (addf (matmul (F := Ideal) d none (truncf .bf16 x hlt) na (constant ⟨2, ![n, 128]⟩ .f32 0x00000000#32))
            (matmul (F := Ideal) d none (truncf .bf16 agg hlt) nb (constant ⟨2, ![n, 128]⟩ .f32 0x00000000#32)))
          (broadcastTo ⟨2, ![n, 128]⟩ bn h2))
      (logistic (addf (addf (matmul (F := Ideal) d none (truncf .bf16 x hlt) na (constant ⟨2, ![n, 128]⟩ .f32 0x00000000#32))
            (matmul (F := Ideal) d none (truncf .bf16 agg hlt) nb (constant ⟨2, ![n, 128]⟩ .f32 0x00000000#32)))
          (broadcastTo ⟨2, ![n, 128]⟩ bn h2))) (ix2 r v)
      = nodeRow (fun q => x (ix2 r q)) (fun q => agg (ix2 r q)) (fun q u => na (ix2 q u)) (fun q u => nb (ix2 q u))
          (fun u => bn (ix2 (0 : Fin 1) u)) v := by
  have e : addf (addf (matmul (F := Ideal) d none (truncf .bf16 x hlt) na (constant ⟨2, ![n, 128]⟩ .f32 0x00000000#32))
            (matmul (F := Ideal) d none (truncf .bf16 agg hlt) nb (constant ⟨2, ![n, 128]⟩ .f32 0x00000000#32)))
          (broadcastTo ⟨2, ![n, 128]⟩ bn h2) (ix2 r v)
      = (∑ q : Fin 128, x (ix2 r q) * na (ix2 q v)) + (∑ q : Fin 128, agg (ix2 r q) * nb (ix2 q v)) + bn (ix2 (0 : Fin 1) v) := by
    rw [addf_apply, addf_apply, hd.matmul_zero_apply, hd.matmul_zero_apply, bcast_row_apply]
    rfl
  rw [silu_apply, e]
  rfl

end Layers

/-- The coordinate weight of a block of messages at row r: a product with a one-column weight into zero, a single
    number added, tanh. -/
theorem coord_apply {d : DotDims ⟨2, ![n, 128]⟩ ⟨2, ![128, 1]⟩ ⟨2, ![n, 1]⟩} (hd : RowsCols d)
    (msg : FVec Ideal ⟨2, ![n, 128]⟩ .f32) (wc : FVec Ideal ⟨2, ![128, 1]⟩ .bf16) (bc : FVec Ideal ⟨2, ![1, 1]⟩ .f32)
    (h3 : (⟨2, ![1, 1]⟩ : Shape).Broadcasts ⟨2, ![n, 1]⟩) (hlt : FTy.bits .bf16 < FTy.bits .f32) (r : Fin n) (u : Fin 1) :
    tanh (addf (matmul (F := Ideal) d none (truncf .bf16 msg hlt) wc (constant ⟨2, ![n, 1]⟩ .f32 0x00000000#32))
        (broadcastTo ⟨2, ![n, 1]⟩ bc h3)) (ix2 r u)
      = coordRow (fun q => msg (ix2 r q)) (fun q => wc (ix2 q (0 : Fin 1))) (bc (ix2 (0 : Fin 1) (0 : Fin 1))) := by
  have hu : u = 0 := Subsingleton.elim _ _
  subst hu
  have e : addf (matmul (F := Ideal) d none (truncf .bf16 msg hlt) wc (constant ⟨2, ![n, 1]⟩ .f32 0x00000000#32))
        (broadcastTo ⟨2, ![n, 1]⟩ bc h3) (ix2 r (0 : Fin 1))
      = (∑ q : Fin 128, msg (ix2 r q) * wc (ix2 q (0 : Fin 1))) + bc (ix2 (0 : Fin 1) (0 : Fin 1)) := by
    rw [addf_apply, hd.matmul_zero_apply, bcast_unit_apply]
    rfl
  rw [tanh_apply, e]
  rfl

end Cert.Egnn

end
-- ==== Proof.EdgeValue.lean ====
/-
  The edge kernel's two output arrays after its 250 grid points, as functions of the arrays it is entered with.

  Point  t  works on edges  2560 t … 2560 t + 2559 : its blocks of the two gathered feature arrays, of the squared lengths,
  of the messages and of the coordinate weights are those rows; the weight and bias windows are whole arrays, the same at
  every point. Each output row depends only on the same row of the inputs, so what point  t  writes back is rows
  2560 t …  of one whole-array function, and the 250 blocks tile the 640000 rows.
-/
import proofs.«147072_j16587163698061_1_alg».proof.Proof.Gen.KernelIdeal.Frame
import proofs.«147072_j16587163698061_1_alg».proof.Proof.Layers

set_option maxRecDepth 16384

noncomputable section

open scoped BigOperators

namespace Cert.KernelIdeal.Val

open Cert.KernelIdeal Cert.KernelIdeal.Gen Cert.Egnn Cert.Lib.DotRowsCols
open Idealize.ShloMosaic Idealize.ShloMosaic.TcCoe Idealize.ShloMosaic.ValueIdx Idealize.SL.Sem
open Idealize.ShloMosaic.Pipeline (Dat Cfg Window)

/-- The edge kernel's products of a block of rows with a 128 × 128 weight. -/
theorem dotE : RowsCols (n := 2560) (K := 128) (c := 128) dot_S2560x128_S128x128_S2560x128_1_0_0_1_n_n :=
  ⟨rfl, rfl, rfl, rfl, rfl, rfl⟩
/-- Its product of a block of rows with the one-column coordinate weight. -/
theorem dotC : RowsCols (n := 2560) (K := 128) (c := 1) dot_S2560x128_S128x1_S2560x1_1_0_0_1_n_n :=
  ⟨rfl, rfl, rfl, rfl, rfl, rfl⟩

/-- The message block before narrowing, at an entry: the message of the block's row r. -/
theorem pay2_apply (x0 x1 : Vec Ideal S2560x128 .bf16) (x2 : Vec Ideal S2560x1 .f32) (x3 x4 : Vec Ideal S128x128 .bf16)
    (x5 x6 : Vec Ideal S1x128 .f32) (x7 : Vec Ideal S128x128 .bf16) (x8 : Vec Ideal S1x128 .f32) (r : Fin 2560) (v : Fin 128) :
    k0_pay2 (F := Ideal) x0 x1 x2 x3 x4 x5 x6 x7 x8 (ix2 r v)
      = msgRow (fun q => x0 (ix2 r q)) (fun q => x1 (ix2 r q)) (x2 (ix2 r (0 : Fin 1))) (fun q u => x3 (ix2 q u))
          (fun q u => x4 (ix2 q u)) (fun u => x5 (ix2 (0 : Fin 1) u)) (fun u => x6 (ix2 (0 : Fin 1) u))
          (fun q u => x7 (ix2 q u)) (fun u => x8 (ix2 (0 : Fin 1) u)) v := by
  unfold k0_pay2
  simp only [shapeCast_self]
  refine (act_layer_apply dotE _ _ _ _ _ r v).trans ?_
  unfold msgRow
  simp only [hid_apply dotE]

/-- The coordinate-weight block at an entry: the coordinate weight of the row's message. -/
theorem pay1_apply (msg : FVec Ideal S2560x128 .f32) (x9 : Vec Ideal S128x1 .bf16) (x10 : Vec Ideal S1x1 .f32)
    (r : Fin 2560) (u : Fin 1) :
    k0_pay1 (F := Ideal) msg x9 x10 (ix2 r u)
      = coordRow (fun q => msg (ix2 r q)) (fun q => x9 (ix2 q (0 : Fin 1))) (x10 (ix2 (0 : Fin 1) (0 : Fin 1))) := by
  unfold k0_pay1
  simp only [shapeCast_self]
  exact coord_apply dotC _ _ _ _ _ r u

/-! ## The whole-array functions -/

/-- Every edge's message, from the arrays the edge kernel is entered with. -/
def msgArr (xr xc : S640000x128.Idx → EReal) (d : S640000x1.Idx → EReal) (wa wb : S128x128.Idx → EReal)
    (wd b1 : S1x128.Idx → EReal) (w2 : S128x128.Idx → EReal) (b2 : S1x128.Idx → EReal) : S640000x128.Idx → EReal :=
  fun j => msgRow (fun q => xr (ix2 (j 0) q)) (fun q => xc (ix2 (j 0) q)) (d (ix2 (j 0) (0 : Fin 1))) (fun q u => wa (ix2 q u))
    (fun q u => wb (ix2 q u)) (fun u => wd (ix2 (0 : Fin 1) u)) (fun u => b1 (ix2 (0 : Fin 1) u)) (fun q u => w2 (ix2 q u))
    (fun u => b2 (ix2 (0 : Fin 1) u)) (j 1)

/-- Every edge's coordinate weight, from the messages. -/
def cwArr (msg : S640000x128.Idx → EReal) (wc : S128x1.Idx → EReal) (bc : S1x1.Idx → EReal) : S640000x1.Idx → EReal :=
  fun j => coordRow (fun q => msg (ix2 (j 0) q)) (fun q => wc (ix2 q (0 : Fin 1))) (bc (ix2 (0 : Fin 1) (0 : Fin 1)))

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 250 points: the five row-blocked windows are at block row t, the eight
    whole-array windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- Edge  2560 t + r . -/
def erow (t : Fin cfg0.N) (r : Fin 2560) : Fin 640000 :=
  ⟨t.val * 2560 + r.val, by have ht : t.val < 250 := t.isLt; have := r.isLt; omega⟩

/-! ## The blocks -/

/-- Row r of point t's block of window 0 is row  2560 t + r  of its array. -/
theorem blk0_apply (c : Dev nD) (t : Fin cfg0.N) (r : Fin 2560) (q : Fin 128) :
    (iblk0 V c 0 t : Vec Ideal S2560x128 .bf16) (ix2 r q) = V c main_v29 (ix2 (erow t r) q) := by
  have h := idx_facts t
  show V c main_v29 (((cfg0.win 0).blk t).view.emb (ix2 r q)) = _
  refine congrArg (V c main_v29) (funext fun a => Fin.ext ?_)
  match a with
  | ⟨0, _⟩ => show win0_0.index t (0 : Fin 2) * 2560 + 1 * r.val = t.val * 2560 + r.val; omega
  | ⟨1, _⟩ => show win0_0.index t (1 : Fin 2) * 128 + 1 * q.val = q.val; omega

/-- Row r of point t's block of window 1 is row  2560 t + r  of its array. -/
theorem blk1_apply (c : Dev nD) (t : Fin cfg0.N) (r : Fin 2560) (q : Fin 128) :
    (iblk0 V c 1 t : Vec Ideal S2560x128 .bf16) (ix2 r q) = V c main_v36 (ix2 (erow t r) q) := by
  have h := idx_facts t
  show V c main_v36 (((cfg0.win 1).blk t).view.emb (ix2 r q)) = _
  refine congrArg (V c main_v36) (funext fun a => Fin.ext ?_)
  match a with
  | ⟨0, _⟩ => show win0_1.index t (0 : Fin 2) * 2560 + 1 * r.val = t.val * 2560 + r.val; omega
  | ⟨1, _⟩ => show win0_1.index t (1 : Fin 2) * 128 + 1 * q.val = q.val; omega

/-- Row r of point t's block of window 2 is row  2560 t + r  of its array. -/
theorem blk2_apply (c : Dev nD) (t : Fin cfg0.N) (r : Fin 2560) (q : Fin 1) :
    (iblk0 V c 2 t : Vec Ideal S2560x1 .f32) (ix2 r q) = V c main_v21 (ix2 (erow t r) q) := by
  have h := idx_facts t
  show V c main_v21 (((cfg0.win 2).blk t).view.emb (ix2 r q)) = _
  refine congrArg (V c main_v21) (funext fun a => Fin.ext ?_)
  match a with
  | ⟨0, _⟩ => show win0_2.index t (0 : Fin 2) * 2560 + 1 * r.val = t.val * 2560 + r.val; omega
  | ⟨1, _⟩ => show win0_2.index t (1 : Fin 2) * 1 + 1 * q.val = q.val; omega

/-- Window 3's block is its whole array, at every point. -/
theorem blk3_eq (c : Dev nD) (t : Fin cfg0.N) : (iblk0 V c 3 t : Vec Ideal S128x128 .bf16) = V c main_v38 := by
  have h := idx_facts t
  funext y
  show V c main_v38 (((cfg0.win 3).blk t).view.emb y) = V c main_v38 y
  refine congrArg (V c main_v38) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4's block is its whole array, at every point. -/
theorem blk4_eq (c : Dev nD) (t : Fin cfg0.N) : (iblk0 V c 4 t : Vec Ideal S128x128 .bf16) = V c main_v40 := by
  have h := idx_facts t
  funext y
  show V c main_v40 (((cfg0.win 4).blk t).view.emb y) = V c main_v40 y
  refine congrArg (V c main_v40) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5's block is its whole array, at every point. -/
theorem blk5_eq (c : Dev nD) (t : Fin cfg0.N) : (iblk0 V c 5 t : Vec Ideal S1x128 .f32) = V c main_v41 := by
  have h := idx_facts t
  funext y
  show V c main_v41 (((cfg0.win 5).blk t).view.emb y) = V c main_v41 y
  refine congrArg (V c main_v41) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6's block is its whole array, at every point. -/
theorem blk6_eq (c : Dev nD) (t : Fin cfg0.N) : (iblk0 V c 6 t : Vec Ideal S1x128 .f32) = V c main_v42 := by
  have h := idx_facts t
  funext y
  show V c main_v42 (((cfg0.win 6).blk t).view.emb y) = V c main_v42 y
  refine congrArg (V c main_v42) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block is its whole array, at every point. -/
theorem blk7_eq (c : Dev nD) (t : Fin cfg0.N) : (iblk0 V c 7 t : Vec Ideal S128x128 .bf16) = V c main_v43 := by
  have h := idx_facts t
  funext y
  show V c main_v43 (((cfg0.win 7).blk t).view.emb y) = V c main_v43 y
  refine congrArg (V c main_v43) (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8's block is its whole array, at every point. -/
theorem blk8_eq (c : Dev nD) (t : Fin cfg0.N) : (iblk0 V c 8 t : Vec Ideal S1x128 .f32) = V c main_v44 := by
  have h := idx_facts t
  funext y
  show V c main_v44 (((cfg0.win 8).blk t).view.emb y) = V c main_v44 y
  refine congrArg (V c main_v44) (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 9's block is its whole array, at every point. -/
theorem blk9_eq (c : Dev nD) (t : Fin cfg0.N) : (iblk0 V c 9 t : Vec Ideal S128x1 .bf16) = V c main_v45 := by
  have h := idx_facts t
  funext y
  show V c main_v45 (((cfg0.win 9).blk t).view.emb y) = V c main_v45 y
  refine congrArg (V c main_v45) (funext fun a => Fin.ext ?_)
  match a with
  | ⟨0, _⟩ => show win0_9.index t (0 : Fin 2) * 128 + 1 * (y 0).val = (y 0).val; omega
  | ⟨1, _⟩ => show win0_9.index t (1 : Fin 2) * 1 + 1 * (y 1).val = (y 1).val; omega

/-- Window 10's block is its whole array, at every point. -/
theorem blk10_eq (c : Dev nD) (t : Fin cfg0.N) : (iblk0 V c 10 t : Vec Ideal S1x1 .f32) = V c main_v46 := by
  have h := idx_facts t
  funext y
  show V c main_v46 (((cfg0.win 10).blk t).view.emb y) = V c main_v46 y
  refine congrArg (V c main_v46) (funext fun a => Fin.ext ?_)
  match a with
  | ⟨0, _⟩ => show win0_10.index t (0 : Fin 2) * 1 + 1 * (y 0).val = (y 0).val; omega
  | ⟨1, _⟩ => show win0_10.index t (1 : Fin 2) * 1 + 1 * (y 1).val = (y 1).val; omega

/-- Where row r, lane v of point t's message block lies in the message array. -/
theorem emb11 (t : Fin cfg0.N) (r : Fin 2560) (v : Fin 128) :
    ((cfg0.win 11).blk t).view.emb (ix2 r v) = (ix2 (erow t r) v : S640000x128.Idx) := by
  have h := idx_facts t
  funext a; apply Fin.ext
  match a with
  | ⟨0, _⟩ => show win0_11.index t (0 : Fin 2) * 2560 + 1 * r.val = t.val * 2560 + r.val; omega
  | ⟨1, _⟩ => show win0_11.index t (1 : Fin 2) * 128 + 1 * v.val = v.val; omega

/-- Where row r of point t's coordinate-weight block lies in its array. -/
theorem emb12 (t : Fin cfg0.N) (r : Fin 2560) (u : Fin 1) :
    ((cfg0.win 12).blk t).view.emb (ix2 r u) = (ix2 (erow t r) u : S640000x1.Idx) := by
  have h := idx_facts t
  funext a; apply Fin.ext
  match a with
  | ⟨0, _⟩ => show win0_12.index t (0 : Fin 2) * 2560 + 1 * r.val = t.val * 2560 + r.val; omega
  | ⟨1, _⟩ => show win0_12.index t (1 : Fin 2) * 1 + 1 * u.val = u.val; omega

/-! ## What a point writes back -/

/-- The message rows of point t's block are the messages of edges  2560 t … . -/
theorem msg_block (c : Dev nD) (t : Fin cfg0.N) (r : Fin 2560) (v : Fin 128) :
    k0_pay2 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 r v)
      = msgArr (V c main_v29) (V c main_v36) (V c main_v21) (V c main_v38) (V c main_v40) (V c main_v41) (V c main_v42) (V c main_v43) (V c main_v44) (ix2 (erow t r) v) := by
  refine (pay2_apply _ _ _ _ _ _ _ _ _ r v).trans ?_
  unfold msgArr
  simp only [blk0_apply, blk1_apply, blk2_apply, blk3_eq, blk4_eq, blk5_eq, blk6_eq, blk7_eq, blk8_eq]

/-- What point t writes back to the message array is its block of the whole-array function. -/
theorem flushed11_eq (c : Dev nD) (t : Fin cfg0.N) :
    (dat0 V c).flushed 11 t = ((cfg0.win 11).blk t).view.read (Elt Ideal) (msgArr (V c main_v29) (V c main_v36) (V c main_v21) (V c main_v38) (V c main_v40) (V c main_v41) (V c main_v42) (V c main_v43) (V c main_v44)) := by
  show (cfg0.win 11).cut (grid0.coords t) ((dat0 V c).after 11 t) = _
  rw [after0_11]
  unfold out0_11
  rw [View.canon_unit_zero hz]
  simp only [View.ld_unit_zero (S := S2560x128) hz, View.ld_unit_zero (S := S2560x1) hz, View.ld_unit_zero (S := S128x128) hz,
    View.ld_unit_zero (S := S1x128) hz]
  funext y
  obtain ⟨r, v, rfl⟩ : ∃ (r : Fin 2560) (v : Fin 128), y = ix2 r v := ⟨y 0, y 1, eq_ix2 y⟩
  show k0_pay2 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 r v)
      = msgArr (V c main_v29) (V c main_v36) (V c main_v21) (V c main_v38) (V c main_v40) (V c main_v41) (V c main_v42) (V c main_v43) (V c main_v44) (((cfg0.win 11).blk t).view.emb (ix2 r v))
  rw [emb11]
  exact msg_block V c t r v

/-- What point t writes back to the coordinate-weight array is its block of the whole-array function. -/
theorem flushed12_eq (c : Dev nD) (t : Fin cfg0.N) :
    (dat0 V c).flushed 12 t = ((cfg0.win 12).blk t).view.read (Elt Ideal)
      (cwArr (msgArr (V c main_v29) (V c main_v36) (V c main_v21) (V c main_v38) (V c main_v40) (V c main_v41) (V c main_v42) (V c main_v43) (V c main_v44)) (V c main_v45) (V c main_v46)) := by
  show (cfg0.win 12).cut (grid0.coords t) ((dat0 V c).after 12 t) = _
  rw [after0_12]
  unfold out0_12
  rw [View.canon_unit_zero hz]
  simp only [View.ld_unit_zero (S := S2560x128) hz, View.ld_unit_zero (S := S2560x1) hz, View.ld_unit_zero (S := S128x128) hz,
    View.ld_unit_zero (S := S1x128) hz, View.ld_unit_zero (S := S128x1) hz, View.ld_unit_zero (S := S1x1) hz]
  funext y
  obtain ⟨r, u, rfl⟩ : ∃ (r : Fin 2560) (u : Fin 1), y = ix2 r u := ⟨y 0, y 1, eq_ix2 y⟩
  show k0_pay1 (F := Ideal) (k0_pay2 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) (iblk0 V c 9 t) (iblk0 V c 10 t) (ix2 r u)
      = cwArr (msgArr (V c main_v29) (V c main_v36) (V c main_v21) (V c main_v38) (V c main_v40) (V c main_v41) (V c main_v42) (V c main_v43) (V c main_v44)) (V c main_v45) (V c main_v46) (((cfg0.win 12).blk t).view.emb (ix2 r u))
  rw [emb12]
  refine (pay1_apply _ _ _ r u).trans ?_
  unfold cwArr
  simp only [msg_block, blk9_eq, blk10_eq]

/-! ## The blocks tile the arrays -/

theorem mem_blk11 (t : Fin cfg0.N) (i : S640000x128.Idx) :
    i ∈ ((cfg0.win 11).blk t).view.set ↔ ∀ a : Fin 2, win0_11.index t a * S2560x128.size a ≤ (i a).val ∧ (i a).val < win0_11.index t a * S2560x128.size a + S2560x128.size a := by
  show i ∈ ((View.whole main_v47_0).slice (win0_11.rect t)).set ↔ _
  rw [View.set_slice_whole, Rect.mem_set_unit]
  exact Iff.rfl

theorem mem_blk12 (t : Fin cfg0.N) (i : S640000x1.Idx) :
    i ∈ ((cfg0.win 12).blk t).view.set ↔ ∀ a : Fin 2, win0_12.index t a * S2560x1.size a ≤ (i a).val ∧ (i a).val < win0_12.index t a * S2560x1.size a + S2560x1.size a := by
  show i ∈ ((View.whole main_v47_1).slice (win0_12.rect t)).set ↔ _
  rw [View.set_slice_whole, Rect.mem_set_unit]
  exact Iff.rfl

/-- Edge e is in the block of point  e / 2560 . -/
theorem cover11 (i : S640000x128.Idx) : ∃ t : Fin cfg0.N, (cfg0.win 11).flush t = true ∧ i ∈ ((cfg0.win 11).blk t).view.set := by
  have hi0 : (i 0).val < 640000 := (i 0).isLt
  have hi1 : (i 1).val < 128 := (i 1).isLt
  have ht : (i 0).val / 2560 < 250 := by omega
  have h := idx_facts ⟨(i 0).val / 2560, ht⟩
  refine ⟨⟨(i 0).val / 2560, ht⟩, flush0_11 _, ?_⟩
  rw [mem_blk11]
  intro a
  match a with
  | ⟨0, _⟩ =>
    show win0_11.index ⟨(i 0).val / 2560, ht⟩ (0 : Fin 2) * 2560 ≤ (i 0).val ∧ (i 0).val < win0_11.index ⟨(i 0).val / 2560, ht⟩ (0 : Fin 2) * 2560 + 2560
    have e : win0_11.index ⟨(i 0).val / 2560, ht⟩ (0 : Fin 2) = (i 0).val / 2560 := h.2.2.2.2.2.2.2.2.2.2.2.2.2.2.2.2.2.2.2.2.2.2.1
    rw [e]; omega
  | ⟨1, _⟩ =>
    show win0_11.index ⟨(i 0).val / 2560, ht⟩ (1 : Fin 2) * 128 ≤ (i 1).val ∧ (i 1).val < win0_11.index ⟨(i 0).val / 2560, ht⟩ (1 : Fin 2) * 128 + 128
    have e : win0_11.index ⟨(i 0).val / 2560, ht⟩ (1 : Fin 2) = 0 := h.2.2.2.2.2.2.2.2.2.2.2.2.2.2.2.2.2.2.2.2.2.2.2.1
    rw [e]; omega

theorem cover12 (i : S640000x1.Idx) : ∃ t : Fin cfg0.N, (cfg0.win 12).flush t = true ∧ i ∈ ((cfg0.win 12).blk t).view.set := by
  have hi0 : (i 0).val < 640000 := (i 0).isLt
  have hi1 : (i 1).val < 1 := (i 1).isLt
  have ht : (i 0).val / 2560 < 250 := by omega
  have h := idx_facts ⟨(i 0).val / 2560, ht⟩
  refine ⟨⟨(i 0).val / 2560, ht⟩, flush0_12 _, ?_⟩
  rw [mem_blk12]
  intro a
  match a with
  | ⟨0, _⟩ =>
    show win0_12.index ⟨(i 0).val / 2560, ht⟩ (0 : Fin 2) * 2560 ≤ (i 0).val ∧ (i 0).val < win0_12.index ⟨(i 0).val / 2560, ht⟩ (0 : Fin 2) * 2560 + 2560
    have e : win0_12.index ⟨(i 0).val / 2560, ht⟩ (0 : Fin 2) = (i 0).val / 2560 := h.2.2.2.2.2.2.2.2.2.2.2.2.2.2.2.2.2.2.2.2.2.2.2.2.1
    rw [e]; omega
  | ⟨1, _⟩ =>
    show win0_12.index ⟨(i 0).val / 2560, ht⟩ (1 : Fin 2) * 1 ≤ (i 1).val ∧ (i 1).val < win0_12.index ⟨(i 0).val / 2560, ht⟩ (1 : Fin 2) * 1 + 1
    have e : win0_12.index ⟨(i 0).val / 2560, ht⟩ (1 : Fin 2) = 0 := h.2.2.2.2.2.2.2.2.2.2.2.2.2.2.2.2.2.2.2.2.2.2.2.2.2
    rw [e]; omega

/-! ## The arrays after the region -/

/-- After the 250 points the message array holds every edge's message. -/
theorem msg_final (c : Dev nD) : (dat0 V c).arrAt 11 cfg0.N = msgArr (V c main_v29) (V c main_v36) (V c main_v21) (V c main_v38) (V c main_v40) (V c main_v41) (V c main_v42) (V c main_v43) (V c main_v44) :=
  (dat0 V c).arrAt_eq_of_cover 11 _ (fun t _ => flushed11_eq V c t) cover11

/-- After the 250 points the coordinate-weight array holds every edge's coordinate weight. -/
theorem cw_final (c : Dev nD) : (dat0 V c).arrAt 12 cfg0.N
    = cwArr (msgArr (V c main_v29) (V c main_v36) (V c main_v21) (V c main_v38) (V c main_v40) (V c main_v41) (V c main_v42) (V c main_v43) (V c main_v44)) (V c main_v45) (V c main_v46) :=
  (dat0 V c).arrAt_eq_of_cover 12 _ (fun t _ => flushed12_eq V c t) cover12

end Cert.KernelIdeal.Val

end
-- ==== Proof.NodeValue.lean ====
/-
  The node kernel's output array after its 10 grid points, as a function of the arrays it is entered with.

  Point  t  works on nodes  2000 t … 2000 t + 1999 : its blocks of the features, of the aggregated messages and of the
  output are those rows; the two weight windows and the bias window are whole arrays. Each output row depends only on the
  same row of the two row-blocked inputs, and the 10 blocks tile the 20000 rows.
-/
import proofs.«147072_j16587163698061_1_alg».proof.Proof.Gen.KernelIdeal.Frame
import proofs.«147072_j16587163698061_1_alg».proof.Proof.Layers

set_option maxRecDepth 16384

noncomputable section

open scoped BigOperators

namespace Cert.KernelIdeal.Val

open Cert.KernelIdeal Cert.KernelIdeal.Gen Cert.Egnn Cert.Lib.DotRowsCols
open Idealize.ShloMosaic Idealize.ShloMosaic.TcCoe Idealize.ShloMosaic.ValueIdx Idealize.SL.Sem
open Idealize.ShloMosaic.Pipeline (Dat Cfg Window)

/-- The node kernel's products of a block of rows with a 128 × 128 weight. -/
theorem dotN : RowsCols (n := 2000) (K := 128) (c := 128) dot_S2000x128_S128x128_S2000x128_1_0_0_1_n_n :=
  ⟨rfl, rfl, rfl, rfl, rfl, rfl⟩

/-- The output block at an entry: the node layer of the block's row r. -/
theorem npay_apply (x0 x1 : Vec Ideal S2000x128 .f32) (x2 x3 : Vec Ideal S128x128 .bf16) (x4 : Vec Ideal S1x128 .f32)
    (r : Fin 2000) (v : Fin 128) :
    k1_pay1 (F := Ideal) x0 x1 x2 x3 x4 (ix2 r v)
      = nodeRow (fun q => x0 (ix2 r q)) (fun q => x1 (ix2 r q)) (fun q u => x2 (ix2 q u)) (fun q u => x3 (ix2 q u))
          (fun u => x4 (ix2 (0 : Fin 1) u)) v := by
  unfold k1_pay1
  simp only [shapeCast_self]
  exact node_apply dotN _ _ _ _ _ _ _ r v

/-- Every node's new features, from the arrays the node kernel is entered with. -/
def nodeArr (x agg : S20000x128.Idx → EReal) (na nb : S128x128.Idx → EReal) (bn : S1x128.Idx → EReal) :
    S20000x128.Idx → EReal :=
  fun j => nodeRow (fun q => x (ix2 (j 0) q)) (fun q => agg (ix2 (j 0) q)) (fun q u => na (ix2 q u)) (fun q u => nb (ix2 q u))
    (fun u => bn (ix2 (0 : Fin 1) u)) (j 1)

variable (V : (c : Dev nD) → (b : Ref sig .tc) → Buf (Elt Ideal) ((c : Thread nD τ).loc b))

theorem nhz : (![0, 0] : Fin 2 → Nat) = fun _ => 0 := funext fun a => by fin_cases a <;> rfl

/-- The printed index maps, decided over the 10 points: the three row-blocked windows are at block row t, the three
    whole-array windows at block 0. -/
theorem nidx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Node  2000 t + r . -/
def nrow (t : Fin cfg1.N) (r : Fin 2000) : Fin 20000 :=
  ⟨t.val * 2000 + r.val, by have ht : t.val < 10 := t.isLt; have := r.isLt; omega⟩

/-! ## The blocks -/

/-- Row r of point t's block of window 0 is row  2000 t + r  of its array. -/
theorem nblk0_apply (c : Dev nD) (t : Fin cfg1.N) (r : Fin 2000) (q : Fin 128) :
    (iblk1 V c 0 t : Vec Ideal S2000x128 .f32) (ix2 r q) = V c main_arg0 (ix2 (nrow t r) q) := by
  have h := nidx_facts t
  show V c main_arg0 (((cfg1.win 0).blk t).view.emb (ix2 r q)) = _
  refine congrArg (V c main_arg0) (funext fun a => Fin.ext ?_)
  match a with
  | ⟨0, _⟩ => show win1_0.index t (0 : Fin 2) * 2000 + 1 * r.val = t.val * 2000 + r.val; omega
  | ⟨1, _⟩ => show win1_0.index t (1 : Fin 2) * 128 + 1 * q.val = q.val; omega

/-- Row r of point t's block of window 1 is row  2000 t + r  of its array. -/
theorem nblk1_apply (c : Dev nD) (t : Fin cfg1.N) (r : Fin 2000) (q : Fin 128) :
    (iblk1 V c 1 t : Vec Ideal S2000x128 .f32) (ix2 r q) = V c main_v57 (ix2 (nrow t r) q) := by
  have h := nidx_facts t
  show V c main_v57 (((cfg1.win 1).blk t).view.emb (ix2 r q)) = _
  refine congrArg (V c main_v57) (funext fun a => Fin.ext ?_)
  match a with
  | ⟨0, _⟩ => show win1_1.index t (0 : Fin 2) * 2000 + 1 * r.val = t.val * 2000 + r.val; omega
  | ⟨1, _⟩ => show win1_1.index t (1 : Fin 2) * 128 + 1 * q.val = q.val; omega

/-- Window 2's block is its whole array, at every point. -/
theorem nblk2_eq (c : Dev nD) (t : Fin cfg1.N) : (iblk1 V c 2 t : Vec Ideal S128x128 .bf16) = V c main_v59 := by
  have h := nidx_facts t
  funext y
  show V c main_v59 (((cfg1.win 2).blk t).view.emb y) = V c main_v59 y
  refine congrArg (V c main_v59) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3's block is its whole array, at every point. -/
theorem nblk3_eq (c : Dev nD) (t : Fin cfg1.N) : (iblk1 V c 3 t : Vec Ideal S128x128 .bf16) = V c main_v61 := by
  have h := nidx_facts t
  funext y
  show V c main_v61 (((cfg1.win 3).blk t).view.emb y) = V c main_v61 y
  refine congrArg (V c main_v61) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Window 4's block is its whole array, at every point. -/
theorem nblk4_eq (c : Dev nD) (t : Fin cfg1.N) : (iblk1 V c 4 t : Vec Ideal S1x128 .f32) = V c main_v62 := by
  have h := nidx_facts t
  funext y
  show V c main_v62 (((cfg1.win 4).blk t).view.emb y) = V c main_v62 y
  refine congrArg (V c main_v62) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Where row r, lane v of point t's output block lies in the output array. -/
theorem nemb5 (t : Fin cfg1.N) (r : Fin 2000) (v : Fin 128) :
    ((cfg1.win 5).blk t).view.emb (ix2 r v) = (ix2 (nrow t r) v : S20000x128.Idx) := by
  have h := nidx_facts t
  funext a; apply Fin.ext
  match a with
  | ⟨0, _⟩ => show win1_5.index t (0 : Fin 2) * 2000 + 1 * r.val = t.val * 2000 + r.val; omega
  | ⟨1, _⟩ => show win1_5.index t (1 : Fin 2) * 128 + 1 * v.val = v.val; omega

/-! ## What a point writes back -/

/-- What point t writes back to the output array is its block of the whole-array function. -/
theorem flushed5_eq (c : Dev nD) (t : Fin cfg1.N) :
    (dat1 V c).flushed 5 t = ((cfg1.win 5).blk t).view.read (Elt Ideal) (nodeArr (V c main_arg0) (V c main_v57) (V c main_v59) (V c main_v61) (V c main_v62)) := by
  show (cfg1.win 5).cut (grid1.coords t) ((dat1 V c).after 5 t) = _
  rw [after1_5]
  unfold out1_5
  rw [View.canon_unit_zero nhz]
  simp only [View.ld_unit_zero (S := S2000x128) nhz, View.ld_unit_zero (S := S128x128) nhz, View.ld_unit_zero (S := S1x128) nhz]
  funext y
  obtain ⟨r, v, rfl⟩ : ∃ (r : Fin 2000) (v : Fin 128), y = ix2 r v := ⟨y 0, y 1, eq_ix2 y⟩
  show k1_pay1 (F := Ideal) (iblk1 V c 0 t) (iblk1 V c 1 t) (iblk1 V c 2 t) (iblk1 V c 3 t) (iblk1 V c 4 t) (ix2 r v)
      = nodeArr (V c main_arg0) (V c main_v57) (V c main_v59) (V c main_v61) (V c main_v62) (((cfg1.win 5).blk t).view.emb (ix2 r v))
  rw [nemb5]
  refine (npay_apply _ _ _ _ _ r v).trans ?_
  unfold nodeArr
  simp only [nblk0_apply, nblk1_apply, nblk2_eq, nblk3_eq, nblk4_eq]

/-! ## The blocks tile the array -/

theorem mem_blk5 (t : Fin cfg1.N) (i : S20000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v63).slice (win1_5.rect t)).set ↔ _
  rw [View.set_slice_whole, Rect.mem_set_unit]
  exact Iff.rfl

/-- Node n is in the block of point  n / 2000 . -/
theorem cover5 (i : S20000x128.Idx) : ∃ t : Fin cfg1.N, (cfg1.win 5).flush t = true ∧ i ∈ ((cfg1.win 5).blk t).view.set := by
  have hi0 : (i 0).val < 20000 := (i 0).isLt
  have hi1 : (i 1).val < 128 := (i 1).isLt
  have ht : (i 0).val / 2000 < 10 := by omega
  have h := nidx_facts ⟨(i 0).val / 2000, ht⟩
  refine ⟨⟨(i 0).val / 2000, ht⟩, flush1_5 _, ?_⟩
  rw [mem_blk5]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    have e : win1_5.index ⟨(i 0).val / 2000, ht⟩ (0 : Fin 2) = (i 0).val / 2000 := h.2.2.2.2.2.2.2.2.2.2.1
    rw [e]; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    have e : win1_5.index ⟨(i 0).val / 2000, ht⟩ (1 : Fin 2) = 0 := h.2.2.2.2.2.2.2.2.2.2.2
    rw [e]; omega

/-- After the 10 points the output array holds every node's new features. -/
theorem node_final (c : Dev nD) : (dat1 V c).arrAt 5 cfg1.N = nodeArr (V c main_arg0) (V c main_v57) (V c main_v59) (V c main_v61) (V c main_v62) :=
  (dat1 V c).arrAt_eq_of_cover 5 _ (fun t _ => flushed5_eq V c t) cover5

end Cert.KernelIdeal.Val

end
-- ==== Proof.Arrays.lean ====
/-
  The layer's three whole-array functions of the launch arrays, over the literal extents: every edge's message and
  coordinate weight from the gathered endpoint features and the squared lengths, and every node's new features from its
  features and its aggregated messages. Row by row they are the row functions of Cert.Egnn, the weights read off the
  whole weight matrices (rows 0 … 127, 128 … 255 and 256 of the first edge weight; rows 0 … 127 and 128 … 255 of the
  node weight).
-/
import proofs.«147072_j16587163698061_1_alg».proof.Proof.Spec
import Idealize.ShloMosaic.Lib.ValueIdx

noncomputable section

open scoped BigOperators

namespace Cert.Egnn

open Idealize.ShloMosaic Idealize.ShloMosaic.ValueIdx

/-- Every edge's message. -/
def edgeMsg (xr xc : (⟨2, ![640000, 128]⟩ : Shape).Idx → EReal) (d : (⟨2, ![640000, 1]⟩ : Shape).Idx → EReal)
    (W1 : (⟨2, ![257, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨2, ![640000, 128]⟩ : Shape).Idx → EReal :=
  fun j => msgRow (fun q => xr (ix2 (j 0) q)) (fun q => xc (ix2 (j 0) q)) (d (ix2 (j 0) (0 : Fin 1)))
    (fun q u => W1 (ix2 ⟨q.val, by omega⟩ u)) (fun q u => W1 (ix2 ⟨128 + q.val, by omega⟩ u))
    (fun u => W1 (ix2 ⟨256, by omega⟩ u)) (fun u => b1 (ix1 u)) (fun q u => W2 (ix2 q u)) (fun u => b2 (ix1 u)) (j 1)

/-- Every edge's coordinate weight. -/
def edgeCw (msg : (⟨2, ![640000, 128]⟩ : Shape).Idx → EReal) (Wc : (⟨2, ![128, 1]⟩ : Shape).Idx → EReal)
    (bc : (⟨1, ![1]⟩ : Shape).Idx → EReal) : (⟨2, ![640000, 1]⟩ : Shape).Idx → EReal :=
  fun j => coordRow (fun q => msg (ix2 (j 0) q)) (fun q => Wc (ix2 q (0 : Fin 1))) (bc (ix1 (0 : Fin 1)))

/-- Every node's new features. -/
def nodeNew (x agg : (⟨2, ![20000, 128]⟩ : Shape).Idx → EReal) (Wn : (⟨2, ![256, 128]⟩ : Shape).Idx → EReal)
    (bn : (⟨1, ![128]⟩ : Shape).Idx → EReal) : (⟨2, ![20000, 128]⟩ : Shape).Idx → EReal :=
  fun j => nodeRow (fun q => x (ix2 (j 0) q)) (fun q => agg (ix2 (j 0) q)) (fun q u => Wn (ix2 ⟨q.val, by omega⟩ u))
    (fun q u => Wn (ix2 ⟨128 + q.val, by omega⟩ u)) (fun u => bn (ix1 u)) (j 1)

end Cert.Egnn

end
-- ==== Proof.KernelSpec.lean ====
/-
  The kernels' whole-array functions, stated over the arrays of their windows, are the layer's functions of the launch
  arrays: the weight windows hold row groups of the whole weight matrices (narrowed to a shorter format, which changes
  nothing on extended reals), the bias windows the bias vectors laid out as one row.
-/
import proofs.«147072_j16587163698061_1_alg».proof.Proof.EdgeValue
import proofs.«147072_j16587163698061_1_alg».proof.Proof.NodeValue
import proofs.«147072_j16587163698061_1_alg».proof.Proof.Arrays

set_option maxRecDepth 16384

noncomputable section

open scoped BigOperators

namespace Cert.KernelIdeal.Val

open Cert.KernelIdeal Cert.KernelIdeal.Gen Cert.Egnn
open Idealize.ShloMosaic Idealize.ShloMosaic.ValueIdx

/-- The messages, over the launch arrays. -/
theorem msgArr_eq (xr xc : FVec Ideal S640000x128 .bf16) (d : FVec Ideal S640000x1 .f32) (W1 : FVec Ideal S257x128 .f32)
    (b1 : FVec Ideal S128 .f32) (W2 : FVec Ideal S128x128 .f32) (b2 : FVec Ideal S128 .f32) :
    msgArr xr xc d (truncf .bf16 (extractStridedSlice S128x128 ![0, 0] W1 slices_S257x128_S128x128_0_0) bitsLt_bf16_f32)
      (truncf .bf16 (extractStridedSlice S128x128 ![128, 0] W1 slices_S257x128_S128x128_128_0) bitsLt_bf16_f32)
      (extractStridedSlice S1x128 ![256, 0] W1 slices_S257x128_S1x128_256_0) (shapeCast S1x128 b1 shapeCasts_S128_S1x128)
      (truncf .bf16 W2 bitsLt_bf16_f32) (shapeCast S1x128 b2 shapeCasts_S128_S1x128)
      = edgeMsg xr xc d W1 b1 W2 b2 := by
  have ea : ∀ q u : Fin 128, extractStridedSlice S128x128 ![0, 0] W1 slices_S257x128_S128x128_0_0 (ix2 q u)
      = W1 (ix2 ⟨q.val, by omega⟩ u) := fun q u => slice_top_apply W1 _ q u _
  have eb : ∀ q u : Fin 128, extractStridedSlice S128x128 ![128, 0] W1 slices_S257x128_S128x128_128_0 (ix2 q u)
      = W1 (ix2 ⟨128 + q.val, by omega⟩ u) := fun q u => slice_rows_apply 128 W1 _ q u _
  have ed : ∀ u : Fin 128, extractStridedSlice S1x128 ![256, 0] W1 slices_S257x128_S1x128_256_0 (ix2 (0 : Fin 1) u)
      = W1 (ix2 ⟨256, by omega⟩ u) := fun u => slice_rows_apply 256 W1 _ (0 : Fin 1) u (by show 256 + 0 < 257; omega)
  have e1 : ∀ u : Fin 128, shapeCast S1x128 b1 shapeCasts_S128_S1x128 (ix2 (0 : Fin 1) u) = b1 (ix1 u) :=
    fun u => row_of_vec_apply b1 _ u
  have e2 : ∀ u : Fin 128, shapeCast S1x128 b2 shapeCasts_S128_S1x128 (ix2 (0 : Fin 1) u) = b2 (ix1 u) :=
    fun u => row_of_vec_apply b2 _ u
  funext j
  unfold msgArr edgeMsg
  simp only [truncf_apply, ea, eb, ed, e1, e2]

/-- The coordinate weights, over the launch arrays. -/
theorem cwArr_eq (msg : FVec Ideal S640000x128 .f32) (Wc : FVec Ideal S128x1 .f32) (bc : FVec Ideal S1 .f32) :
    cwArr msg (truncf .bf16 Wc bitsLt_bf16_f32) (shapeCast S1x1 bc shapeCasts_S1_S1x1) = edgeCw msg Wc bc := by
  have e1 : shapeCast S1x1 bc shapeCasts_S1_S1x1 (ix2 (0 : Fin 1) (0 : Fin 1)) = bc (ix1 (0 : Fin 1)) :=
    row_of_vec_apply bc _ (0 : Fin 1)
  funext j
  unfold cwArr edgeCw
  simp only [truncf_apply, e1]

/-- The new node features, over the launch arrays. -/
theorem nodeArr_eq (x agg : FVec Ideal S20000x128 .f32) (Wn : FVec Ideal S256x128 .f32) (bn : FVec Ideal S128 .f32) :
    nodeArr x agg (truncf .bf16 (extractStridedSlice S128x128 ![0, 0] Wn slices_S256x128_S128x128_0_0) bitsLt_bf16_f32)
      (truncf .bf16 (extractStridedSlice S128x128 ![128, 0] Wn slices_S256x128_S128x128_128_0) bitsLt_bf16_f32)
      (shapeCast S1x128 bn shapeCasts_S128_S1x128)
      = nodeNew x agg Wn bn := by
  have ea : ∀ q u : Fin 128, extractStridedSlice S128x128 ![0, 0] Wn slices_S256x128_S128x128_0_0 (ix2 q u)
      = Wn (ix2 ⟨q.val, by omega⟩ u) := fun q u => slice_top_apply Wn _ q u _
  have eb : ∀ q u : Fin 128, extractStridedSlice S128x128 ![128, 0] Wn slices_S256x128_S128x128_128_0 (ix2 q u)
      = Wn (ix2 ⟨128 + q.val, by omega⟩ u) := fun q u => slice_rows_apply 128 Wn _ q u _
  have e1 : ∀ u : Fin 128, shapeCast S1x128 bn shapeCasts_S128_S1x128 (ix2 (0 : Fin 1) u) = bn (ix1 u) :=
    fun u => row_of_vec_apply bn _ u
  funext j
  unfold nodeArr nodeNew
  simp only [truncf_apply, ea, eb, e1]

end Cert.KernelIdeal.Val

end
-- ==== Proof.KernelValue.lean ====
/-
  The two results of the kernel's program as terms of the launch arrays: the new features are the node layer of the features
  and of the messages added up per source node; the new positions are the positions plus, per source node, the sum of the
  relative positions scaled by the coordinate weights. The messages and coordinate weights are the edge layer of the gathered
  endpoint features and the squared lengths.
-/
import proofs.«147072_j16587163698061_1_alg».proof.Proof.HostValue
import proofs.«147072_j16587163698061_1_alg».proof.Proof.KernelSpec

set_option maxRecDepth 16384

noncomputable section

namespace Cert.KernelIdeal.Val

open Cert.KernelIdeal Cert.KernelIdeal.Gen Cert.Egnn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The narrowed features of each edge's source node. -/
abbrev featSrc : FVec Ideal S640000x128 .bf16 :=
  Host.gather gather_S20000x128_S640000x1_S640000x128_1_0_n_n_0_1_1128 (truncf .bf16 (aX m c) bitsLt_bf16_f32) (wrapCol (srcNode (aE m c)))

/-- The narrowed features of each edge's destination node. -/
abbrev featDst : FVec Ideal S640000x128 .bf16 :=
  Host.gather gather_S20000x128_S640000x1_S640000x128_1_0_n_n_0_1_1128 (truncf .bf16 (aX m c) bitsLt_bf16_f32) (wrapCol (dstNode (aE m c)))

/-- Every edge's message, from the launch arrays. -/
def msgs : FVec Ideal S640000x128 .f32 :=
  edgeMsg (featSrc m c) (featDst m c) (sqLen (F := Ideal) (aPos m c) (aE m c)) (aW1 m c) (aB1 m c) (aW2 m c) (aB2 m c)

/-- The edge kernel leaves the messages in its first output array. -/
theorem w2Msg_eq : w2Msg m ρ c = msgs m c := by
  refine ((W2_arr m ρ c 11).trans (msg_final (V1 m ρ) c)).trans ?_
  rw [v29_eq, v36_eq, v21_eq, v38_eq, v40_eq, v41_eq, v42_eq, v43_eq, v44_eq]
  exact msgArr_eq _ _ _ _ _ _ _

/-- The edge kernel leaves the coordinate weights in its second output array. -/
theorem w2Cw_eq : w2Cw m ρ c = edgeCw (msgs m c) (aWc m c) (aBc m c) := by
  refine ((W2_arr m ρ c 12).trans (cw_final (V1 m ρ) c)).trans ?_
  rw [v29_eq, v36_eq, v21_eq, v38_eq, v40_eq, v41_eq, v42_eq, v43_eq, v44_eq, v45_eq, v46_eq, msgArr_eq]
  exact cwArr_eq _ _ _

/-- The new features. -/
theorem kernel_x : (W4 m ρ c (Proc.devRef .tc main_v63) : FVec Ideal S20000x128 .f32)
    = nodeNew (aX m c)
        (Host.scatterAdd scatter_S20000x128_S640000x1_S640000x128_1_0_0_1 (broadcastInDim S20000x128 ![] bcast_S_S20000x128 (constant (F := Ideal) S_ .f32 0x00000000#32))
          (plainCol (srcNode (aE m c))) (msgs m c))
        (aWn m c) (aBn m c) := by
  refine ((W4_arr m ρ c 5).trans (node_final (V3 m ρ) c)).trans ?_
  rw [n_x_eq, n_agg_eq, n_wa_eq, n_wb_eq, n_bn_eq, w2X_eq, w2Src_eq, w2Wn_eq, w2Bn_eq, w2Msg_eq, nodeArr_eq]
  rfl

/-- The new positions. -/
theorem kernel_pos : (W4 m ρ c (Proc.devRef .tc main_v53) : FVec Ideal S20000x3 .f32)
    = addf (aPos m c)
        (Host.scatterAdd scatter_S20000x3_S640000x1_S640000x3_1_0_0_1 (broadcastInDim S20000x3 ![] bcast_S_S20000x3 (constant (F := Ideal) S_ .f32 0x00000000#32))
          (plainCol (srcNode (aE m c)))
          (mulf (relPos (F := Ideal) (aPos m c) (aE m c))
            (broadcastInDim S640000x3 ![0, 1] bcast_S640000x1_S640000x3_0_1 (edgeCw (msgs m c) (aWc m c) (aBc m c))))) := by
  refine (W4_of_ne m ρ c main_v53 (by decide)).trans ?_
  refine (pos_eq m ρ c).trans ?_
  rw [w2Pos_eq, w2Src_eq, w2Rel_eq, w2Cw_eq]

end Cert.KernelIdeal.Val

end
-- ==== Proof.RefLayers.lean ====
/-
  The host's layers read at one entry, at the ideal values.

  The host joins the two gathered feature rows and the squared length into one row of 257 numbers and multiplies by the
  whole 257-row weight; the sum over the 257 lanes splits into the three groups of the row function (Cert.Egnn). The bias
  is a vector made a one-row matrix and repeated down the rows. The activation is spelt out as  x · (1 / (1 + exp (−x))) ,
  which is  x · logistic x  on the extended reals. The node layer joins two rows of 128 into 256 the same way.
-/
import proofs.«147072_j16587163698061_1_alg».proof.Proof.LibDotRowsCols
import proofs.«147072_j16587163698061_1_alg».proof.Proof.Spec
import Idealize.ShloMosaic.Lib.Pipeline.Value
import Idealize.ShloMosaic.Lib.IdealHost

noncomputable section

open scoped BigOperators

namespace Cert.Egnn

open Idealize.ShloMosaic Idealize.ShloMosaic.ValueIdx Cert.Lib.DotRowsCols

variable {α : Type} {n c : Nat}

/-! ## Rows joined along the lanes -/

section Join3

variable (xr xc : (⟨2, ![n, 128]⟩ : Shape).Idx → α) (d : (⟨2, ![n, 1]⟩ : Shape).Idx → α)
  (h : Shape.Concatenates [(⟨2, ![n, 128]⟩ : Shape), ⟨2, ![n, 128]⟩, ⟨2, ![n, 1]⟩] ⟨2, ![n, 257]⟩ 1) (e : Fin n)

/-- Lanes 0 … 127 of the joined row are the first row. -/
theorem join3_first (q : Fin 128) :
    concatenate ⟨2, ![n, 257]⟩ 1 [⟨⟨2, ![n, 128]⟩, xr⟩, ⟨⟨2, ![n, 128]⟩, xc⟩, ⟨⟨2, ![n, 1]⟩, d⟩] h (ix2 e ⟨q.val, by omega⟩) = xr (ix2 e q) :=
  concatenate_apply_piece (t := ⟨2, ![n, 257]⟩) (a := (1 : Fin 2)) [⟨⟨2, ![n, 128]⟩, xr⟩, ⟨⟨2, ![n, 128]⟩, xc⟩, ⟨⟨2, ![n, 1]⟩, d⟩] h _ 0 (by show (0 : ℕ) < 3; omega) ⟨2, ![n, 128]⟩ xr rfl rfl 0 rfl (ix2 e q)
    (fun b hb => by match b with | ⟨0, _⟩ => rfl | ⟨1, _⟩ => exact absurd rfl hb) (Nat.zero_add _)

/-- Lanes 128 … 255 of the joined row are the second row. -/
theorem join3_second (q : Fin 128) :
    concatenate ⟨2, ![n, 257]⟩ 1 [⟨⟨2, ![n, 128]⟩, xr⟩, ⟨⟨2, ![n, 128]⟩, xc⟩, ⟨⟨2, ![n, 1]⟩, d⟩] h (ix2 e ⟨128 + q.val, by omega⟩) = xc (ix2 e q) :=
  concatenate_apply_piece (t := ⟨2, ![n, 257]⟩) (a := (1 : Fin 2)) [⟨⟨2, ![n, 128]⟩, xr⟩, ⟨⟨2, ![n, 128]⟩, xc⟩, ⟨⟨2, ![n, 1]⟩, d⟩] h _ 1 (by show (1 : ℕ) < 3; omega) ⟨2, ![n, 128]⟩ xc rfl rfl 128 rfl (ix2 e q)
    (fun b hb => by match b with | ⟨0, _⟩ => rfl | ⟨1, _⟩ => exact absurd rfl hb) rfl

/-- Lane 256 of the joined row is the scalar. -/
theorem join3_last :
    concatenate ⟨2, ![n, 257]⟩ 1 [⟨⟨2, ![n, 128]⟩, xr⟩, ⟨⟨2, ![n, 128]⟩, xc⟩, ⟨⟨2, ![n, 1]⟩, d⟩] h (ix2 e ⟨256, by omega⟩) = d (ix2 e (0 : Fin 1)) :=
  concatenate_apply_piece (t := ⟨2, ![n, 257]⟩) (a := (1 : Fin 2)) [⟨⟨2, ![n, 128]⟩, xr⟩, ⟨⟨2, ![n, 128]⟩, xc⟩, ⟨⟨2, ![n, 1]⟩, d⟩] h _ 2 (by show (2 : ℕ) < 3; omega) ⟨2, ![n, 1]⟩ d rfl rfl 256 rfl (ix2 e (0 : Fin 1))
    (fun b hb => by match b with | ⟨0, _⟩ => rfl | ⟨1, _⟩ => exact absurd rfl hb) rfl

end Join3

section Join2

variable (x agg : (⟨2, ![n, 128]⟩ : Shape).Idx → α)
  (h : Shape.Concatenates [(⟨2, ![n, 128]⟩ : Shape), ⟨2, ![n, 128]⟩] ⟨2, ![n, 256]⟩ 1) (e : Fin n)

/-- Lanes 0 … 127 of two rows joined are the first row. -/
theorem join2_first (q : Fin 128) :
    concatenate ⟨2, ![n, 256]⟩ 1 [⟨⟨2, ![n, 128]⟩, x⟩, ⟨⟨2, ![n, 128]⟩, agg⟩] h (ix2 e ⟨q.val, by omega⟩) = x (ix2 e q) :=
  concatenate_apply_piece (t := ⟨2, ![n, 256]⟩) (a := (1 : Fin 2)) [⟨⟨2, ![n, 128]⟩, x⟩, ⟨⟨2, ![n, 128]⟩, agg⟩] h _ 0 (by show (0 : ℕ) < 2; omega) ⟨2, ![n, 128]⟩ x rfl rfl 0 rfl (ix2 e q)
    (fun b hb => by match b with | ⟨0, _⟩ => rfl | ⟨1, _⟩ => exact absurd rfl hb) (Nat.zero_add _)

/-- Lanes 128 … 255 of two rows joined are the second row. -/
theorem join2_second (q : Fin 128) :
    concatenate ⟨2, ![n, 256]⟩ 1 [⟨⟨2, ![n, 128]⟩, x⟩, ⟨⟨2, ![n, 128]⟩, agg⟩] h (ix2 e ⟨128 + q.val, by omega⟩) = agg (ix2 e q) :=
  concatenate_apply_piece (t := ⟨2, ![n, 256]⟩) (a := (1 : Fin 2)) [⟨⟨2, ![n, 128]⟩, x⟩, ⟨⟨2, ![n, 128]⟩, agg⟩] h _ 1 (by show (1 : ℕ) < 2; omega) ⟨2, ![n, 128]⟩ agg rfl rfl 128 rfl (ix2 e q)
    (fun b hb => by match b with | ⟨0, _⟩ => rfl | ⟨1, _⟩ => exact absurd rfl hb) rfl

end Join2

/-! ## The bias and the activation as the host spells them -/

/-- A vector made a one-row matrix and repeated down the rows reads, at (e, v), its entry v. -/
theorem bias_apply (b : (⟨1, ![c]⟩ : Shape).Idx → α) (h1 : (⟨1, ![c]⟩ : Shape).BroadcastsInDim ⟨2, ![1, c]⟩ ![1])
    (h2 : (⟨2, ![1, c]⟩ : Shape).BroadcastsInDim ⟨2, ![n, c]⟩ ![0, 1]) (e : Fin n) (v : Fin c) :
    broadcastInDim ⟨2, ![n, c]⟩ ![0, 1] h2 (broadcastInDim ⟨2, ![1, c]⟩ ![1] h1 b) (ix2 e v) = b (ix1 v) := by
  refine (broadcastInDim_apply ![0, 1] h2 _ (ix2 e v) (ix2 (0 : Fin 1) v) fun a => ?_).trans
    (broadcastInDim_apply ![1] h1 b (ix2 (0 : Fin 1) v) (ix1 v) fun a => ?_)
  · match a with
    | ⟨0, _⟩ => rfl
    | ⟨1, _⟩ =>
      show v.val = if c = 1 then 0 else v.val
      split
      · have := v.isLt; omega
      · rfl
  · match a with
    | ⟨0, _⟩ =>
      show v.val = if c = 1 then 0 else v.val
      split
      · have := v.isLt; omega
      · rfl

/-- The number one repeated over a whole array reads one everywhere. -/
theorem ones_apply {s : Shape} (h : (⟨0, ![]⟩ : Shape).BroadcastsInDim s ![]) (i : s.Idx) :
    broadcastInDim s ![] h (constant (F := Ideal) ⟨0, ![]⟩ .f32 0x3F800000#32) i = (1 : EReal) := by
  rw [broadcastInDim_apply ![] h _ i ix0 (fun a => a.elim0), constant_apply, Ideal.ofBits_one_f32]

/-- The host's spelling of the activation,  x · (1 / (1 + exp (−x))) , at an entry. -/
theorem host_silu_apply {s : Shape} (x : FVec Ideal s .f32) (h : (⟨0, ![]⟩ : Shape).BroadcastsInDim s ![]) (i : s.Idx) :
    mulf x (Host.divf (broadcastInDim s ![] h (constant (F := Ideal) ⟨0, ![]⟩ .f32 0x3F800000#32))
        (addf (broadcastInDim s ![] h (constant (F := Ideal) ⟨0, ![]⟩ .f32 0x3F800000#32)) (Host.exp (Host.negf x)))) i
      = silu (x i) := by
  show x i * Ideal.div (broadcastInDim s ![] h (constant (F := Ideal) ⟨0, ![]⟩ .f32 0x3F800000#32) i)
      (broadcastInDim s ![] h (constant (F := Ideal) ⟨0, ![]⟩ .f32 0x3F800000#32) i + Ideal.exp (-(x i))) = _
  rw [ones_apply]
  rfl

/-- The host's tanh of an array, at an entry. -/
theorem host_tanh_apply {s : Shape} {φ : FTy} (a : FVec Ideal s φ) (i : s.Idx) : Host.tanh a i = Ideal.tanh (a i) := rfl

/-! ## The layers -/

/-- The host's first edge layer before the activation, at entry (e, v). -/
theorem ref_hid_apply {dd : DotDims ⟨2, ![n, 257]⟩ ⟨2, ![257, 128]⟩ ⟨2, ![n, 128]⟩} (hd : RowsCols dd)
    (xr xc : FVec Ideal ⟨2, ![n, 128]⟩ .f32) (d : FVec Ideal ⟨2, ![n, 1]⟩ .f32) (W1 : FVec Ideal ⟨2, ![257, 128]⟩ .f32)
    (b1 : FVec Ideal ⟨1, ![128]⟩ .f32)
    (hc : Shape.Concatenates [(⟨2, ![n, 128]⟩ : Shape), ⟨2, ![n, 128]⟩, ⟨2, ![n, 1]⟩] ⟨2, ![n, 257]⟩ 1)
    (h1 : (⟨1, ![128]⟩ : Shape).BroadcastsInDim ⟨2, ![1, 128]⟩ ![1])
    (h2 : (⟨2, ![1, 128]⟩ : Shape).BroadcastsInDim ⟨2, ![n, 128]⟩ ![0, 1]) (e : Fin n) (v : Fin 128) :
    addf (Host.dotGeneral (F := Ideal) dd none
          (concatenate ⟨2, ![n, 257]⟩ 1 [⟨⟨2, ![n, 128]⟩, xr⟩, ⟨⟨2, ![n, 128]⟩, xc⟩, ⟨⟨2, ![n, 1]⟩, d⟩] hc) W1)
        (broadcastInDim ⟨2, ![n, 128]⟩ ![0, 1] h2 (broadcastInDim ⟨2, ![1, 128]⟩ ![1] h1 b1)) (ix2 e v)
      = hidPre (fun q => xr (ix2 e q)) (fun q => xc (ix2 e q)) (d (ix2 e (0 : Fin 1)))
          (fun q u => W1 (ix2 ⟨q.val, by omega⟩ u)) (fun q u => W1 (ix2 ⟨128 + q.val, by omega⟩ u))
          (fun u => W1 (ix2 ⟨256, by omega⟩ u)) (fun u => b1 (ix1 u)) v := by
  unfold hidPre
  rw [addf_apply, hd.dotGeneral_apply, bias_apply]
  refine congrArg (· + b1 (ix1 v)) ?_
  show ∑ k : Fin 257, concatenate ⟨2, ![n, 257]⟩ 1 [⟨⟨2, ![n, 128]⟩, xr⟩, ⟨⟨2, ![n, 128]⟩, xc⟩, ⟨⟨2, ![n, 1]⟩, d⟩] hc (ix2 e k) * W1 (ix2 k v) = _
  simp only [sum_257, join3_first, join3_second, join3_last]

/-- The host's affine layer of an array of rows, at entry (e, v). -/
theorem ref_affine_apply {K : Nat} {dd : DotDims ⟨2, ![n, K]⟩ ⟨2, ![K, c]⟩ ⟨2, ![n, c]⟩} (hd : RowsCols dd)
    (x : FVec Ideal ⟨2, ![n, K]⟩ .f32) (W : FVec Ideal ⟨2, ![K, c]⟩ .f32) (b : FVec Ideal ⟨1, ![c]⟩ .f32)
    (h1 : (⟨1, ![c]⟩ : Shape).BroadcastsInDim ⟨2, ![1, c]⟩ ![1])
    (h2 : (⟨2, ![1, c]⟩ : Shape).BroadcastsInDim ⟨2, ![n, c]⟩ ![0, 1]) (e : Fin n) (v : Fin c) :
    addf (Host.dotGeneral (F := Ideal) dd none x W)
        (broadcastInDim ⟨2, ![n, c]⟩ ![0, 1] h2 (broadcastInDim ⟨2, ![1, c]⟩ ![1] h1 b)) (ix2 e v)
      = (∑ q : Fin K, x (ix2 e q) * W (ix2 q v)) + b (ix1 v) := by
  rw [addf_apply, hd.dotGeneral_apply, bias_apply]
  rfl

/-- The host's node layer before the activation, at entry (e, v). -/
theorem ref_node_apply {dd : DotDims ⟨2, ![n, 256]⟩ ⟨2, ![256, 128]⟩ ⟨2, ![n, 128]⟩} (hd : RowsCols dd)
    (x agg : FVec Ideal ⟨2, ![n, 128]⟩ .f32) (Wn : FVec Ideal ⟨2, ![256, 128]⟩ .f32) (bn : FVec Ideal ⟨1, ![128]⟩ .f32)
    (hc : Shape.Concatenates [(⟨2, ![n, 128]⟩ : Shape), ⟨2, ![n, 128]⟩] ⟨2, ![n, 256]⟩ 1)
    (h1 : (⟨1, ![128]⟩ : Shape).BroadcastsInDim ⟨2, ![1, 128]⟩ ![1])
    (h2 : (⟨2, ![1, 128]⟩ : Shape).BroadcastsInDim ⟨2, ![n, 128]⟩ ![0, 1]) (e : Fin n) (v : Fin 128) :
    addf (Host.dotGeneral (F := Ideal) dd none
          (concatenate ⟨2, ![n, 256]⟩ 1 [⟨⟨2, ![n, 128]⟩, x⟩, ⟨⟨2, ![n, 128]⟩, agg⟩] hc) Wn)
        (broadcastInDim ⟨2, ![n, 128]⟩ ![0, 1] h2 (broadcastInDim ⟨2, ![1, 128]⟩ ![1] h1 bn)) (ix2 e v)
      = (∑ q : Fin 128, x (ix2 e q) * Wn (ix2 ⟨q.val, by omega⟩ v))
        + (∑ q : Fin 128, agg (ix2 e q) * Wn (ix2 ⟨128 + q.val, by omega⟩ v)) + bn (ix1 v) := by
  rw [addf_apply, hd.dotGeneral_apply, bias_apply]
  refine congrArg (· + bn (ix1 v)) ?_
  show ∑ k : Fin 256, concatenate ⟨2, ![n, 256]⟩ 1 [⟨⟨2, ![n, 128]⟩, x⟩, ⟨⟨2, ![n, 128]⟩, agg⟩] hc (ix2 e k) * Wn (ix2 k v) = _
  simp only [sum_256, join2_first, join2_second]

end Cert.Egnn

end
-- ==== Proof.RefValue.lean ====
/-
  The reference's stages are the layer's whole-array functions of the launch arrays.

  Entry by entry: the reference joins the two gathered feature rows and the squared length into one row of 257 numbers and
  multiplies by the whole first weight, which is the sum of the three groups; it spells the activation out as
  x · (1 / (1 + exp (−x))) ; the second edge layer, the coordinate weight and the node layer (a join of two rows of 128
  against the whole node weight) follow the same way.
-/
import proofs.«147072_j16587163698061_1_alg».proof.Proof.RefRead
import proofs.«147072_j16587163698061_1_alg».proof.Proof.RefLayers
import proofs.«147072_j16587163698061_1_alg».proof.Proof.Arrays

set_option maxRecDepth 16384

noncomputable section

open scoped BigOperators

namespace Cert.ReferenceIdeal.RefVal

open Cert.ReferenceIdeal Cert.ReferenceIdeal.Gen Cert.ReferenceIdeal.ReadP Cert.Egnn Cert.Lib.DotRowsCols
open Idealize.ShloMosaic Idealize.ShloMosaic.ValueIdx

theorem dotJ : RowsCols (n := 640000) (K := 257) (c := 128) dot_S640000x257_S257x128_S640000x128_1_0_0_1_n_n :=
  ⟨rfl, rfl, rfl, rfl, rfl, rfl⟩
theorem dotM : RowsCols (n := 640000) (K := 128) (c := 128) dot_S640000x128_S128x128_S640000x128_1_0_0_1_n_n :=
  ⟨rfl, rfl, rfl, rfl, rfl, rfl⟩
theorem dotC : RowsCols (n := 640000) (K := 128) (c := 1) dot_S640000x128_S128x1_S640000x1_1_0_0_1_n_n :=
  ⟨rfl, rfl, rfl, rfl, rfl, rfl⟩
theorem dotN : RowsCols (n := 20000) (K := 256) (c := 128) dot_S20000x256_S256x128_S20000x128_1_0_0_1_n_n :=
  ⟨rfl, rfl, rfl, rfl, rfl, rfl⟩

variable (x0 : FVec Ideal S20000x128 .f32) (x1 : FVec Ideal S20000x3 .f32) (x2 : IVec S2x640000 32)
  (x3 : FVec Ideal S257x128 .f32) (x4 : FVec Ideal S128 .f32) (x5 : FVec Ideal S128x128 .f32) (x6 : FVec Ideal S128 .f32)
  (x7 : FVec Ideal S256x128 .f32) (x8 : FVec Ideal S128 .f32) (x9 : FVec Ideal S128x1 .f32) (x10 : FVec Ideal S1 .f32)

/-- The first edge layer, activated, at entry (e, v). -/
theorem hid_apply' (e : Fin 640000) (v : Fin 128) :
    val_main_v41 (F := Ideal) x0 x1 x2 x3 x4 (ix2 e v)
      = silu (hidPre (fun q => val_main_v28 (F := Ideal) x0 x2 (ix2 e q)) (fun q => val_main_v35 (F := Ideal) x0 x2 (ix2 e q))
          (val_main_v21 (F := Ideal) x1 x2 (ix2 e (0 : Fin 1))) (fun q u => x3 (ix2 ⟨q.val, by omega⟩ u))
          (fun q u => x3 (ix2 ⟨128 + q.val, by omega⟩ u)) (fun u => x3 (ix2 ⟨256, by omega⟩ u)) (fun u => x4 (ix1 u)) v) := by
  unfold val_main_v41 val_main_call0_v5 val_main_call0_v4 val_main_call0_cst_0 val_main_call0_v3 val_main_call0_v2 val_main_call0_cst
    val_main_call0_v1 val_main_call0_v0
  rw [host_silu_apply]
  unfold val_main_v40 val_main_v39 val_main_v38 val_main_v37 val_main_v36
  rw [ref_hid_apply dotJ]

/-- Every edge's message. -/
theorem msg_eq : val_main_v46 (F := Ideal) x0 x1 x2 x3 x4 x5 x6
    = edgeMsg (val_main_v28 (F := Ideal) x0 x2) (val_main_v35 (F := Ideal) x0 x2) (val_main_v21 (F := Ideal) x1 x2) x3 x4 x5 x6 := by
  funext j
  obtain ⟨e, v, rfl⟩ : ∃ (e : Fin 640000) (v : Fin 128), j = ix2 e v := ⟨j 0, j 1, eq_ix2 j⟩
  unfold val_main_v46 val_main_call1_v5 val_main_call1_v4 val_main_call1_cst_0 val_main_call1_v3 val_main_call1_v2 val_main_call1_cst
    val_main_call1_v1 val_main_call1_v0
  rw [host_silu_apply]
  unfold val_main_v45 val_main_v44 val_main_v43 val_main_v42
  rw [ref_affine_apply dotM]
  simp only [hid_apply']
  rfl

/-- Every edge's coordinate weight. -/
theorem cw_eq : val_main_v51 (F := Ideal) x0 x1 x2 x3 x4 x5 x6 x9 x10
    = edgeCw (val_main_v46 (F := Ideal) x0 x1 x2 x3 x4 x5 x6) x9 x10 := by
  funext j
  obtain ⟨e, u, rfl⟩ : ∃ (e : Fin 640000) (u : Fin 1), j = ix2 e u := ⟨j 0, j 1, eq_ix2 j⟩
  have hu : u = 0 := Subsingleton.elim _ _
  subst hu
  unfold val_main_v51 val_main_v50 val_main_v49 val_main_v48 val_main_v47
  rw [host_tanh_apply, ref_affine_apply dotC]
  rfl

/-- Every node's new features. -/
theorem node_eq : val_main_v66 (F := Ideal) x0 x1 x2 x3 x4 x5 x6 x7 x8
    = nodeNew x0 (val_main_v60 (F := Ideal) x0 x1 x2 x3 x4 x5 x6) x7 x8 := by
  funext j
  obtain ⟨e, v, rfl⟩ : ∃ (e : Fin 20000) (v : Fin 128), j = ix2 e v := ⟨j 0, j 1, eq_ix2 j⟩
  unfold val_main_v66 val_main_call2_v5 val_main_call2_v4 val_main_call2_cst_0 val_main_call2_v3 val_main_call2_v2 val_main_call2_cst
    val_main_call2_v1 val_main_call2_v0
  rw [host_silu_apply]
  unfold val_main_v65 val_main_v64 val_main_v63 val_main_v62 val_main_v61
  rw [ref_node_apply dotN]
  rfl

end Cert.ReferenceIdeal.RefVal

end
-- ==== Proof.Bridge.lean ====
/-
  The two programs compute the same two arrays.

  Both gather the endpoint rows through the same wrapped index columns, form the same relative positions and squared
  lengths, add up per source node with the same accumulating scatter from zero, and differ only in how the layers are
  evaluated: the kernel program narrows operands on the way into its products (the identity on extended reals) and takes the
  weight matrices in groups of rows, the reference joins rows and multiplies by the whole matrices. With the layers read as
  the same whole-array functions on both sides, the surrounding host operations coincide term by term.
-/
import proofs.«147072_j16587163698061_1_alg».proof.Proof.KernelValue
import proofs.«147072_j16587163698061_1_alg».proof.Proof.RefValue

set_option maxRecDepth 16384

noncomputable section

namespace Cert.Proof.Bridge

open Idealize.ShloMosaic Idealize.ShloMosaic.TcCoe Idealize.SL.Sem
open Cert.KernelIdeal (nD τ sig)
open Cert.KernelIdeal.Gen (W4)
open Cert.KernelIdeal.Val
open Cert.Egnn

variable (m : (ℓ : Loc nD τ sig) → Buf (Elt Ideal) ℓ) (ρ : Dev nD → PrngReg) (c : Dev nD)

/-- The source rows the kernel program gathers (narrowed) are the reference's. -/
theorem src_eq : (featSrc m c : (⟨2, ![640000, 128]⟩ : Shape).Idx → EReal)
    = Cert.ReferenceIdeal.ReadP.val_main_v28 (F := Ideal) (aX m c) (aE m c) := rfl

/-- The destination rows likewise. -/
theorem dst_eq : (featDst m c : (⟨2, ![640000, 128]⟩ : Shape).Idx → EReal)
    = Cert.ReferenceIdeal.ReadP.val_main_v35 (F := Ideal) (aX m c) (aE m c) := rfl

/-- The squared lengths are the reference's. -/
theorem len_eq : (sqLen (F := Ideal) (aPos m c) (aE m c) : (⟨2, ![640000, 1]⟩ : Shape).Idx → EReal)
    = Cert.ReferenceIdeal.ReadP.val_main_v21 (F := Ideal) (aPos m c) (aE m c) := rfl

/-- The messages are the reference's. -/
theorem msgs_eq : msgs m c
    = Cert.ReferenceIdeal.ReadP.val_main_v46 (F := Ideal) (aX m c) (aPos m c) (aE m c) (aW1 m c) (aB1 m c) (aW2 m c) (aB2 m c) := by
  rw [Cert.ReferenceIdeal.RefVal.msg_eq, ← src_eq, ← dst_eq, ← len_eq]
  rfl

/-- The new features: the reference's result is the kernel program's. -/
theorem x_eq : Cert.ReferenceIdeal.ReadP.val_main_v66 (F := Ideal) (aX m c) (aPos m c) (aE m c) (aW1 m c) (aB1 m c) (aW2 m c) (aB2 m c) (aWn m c) (aBn m c)
    = W4 m ρ c (Proc.devRef .tc Cert.KernelIdeal.main_v63) := by
  rw [Cert.ReferenceIdeal.RefVal.node_eq]
  refine Eq.trans ?_ (kernel_x m ρ c).symm
  unfold Cert.ReferenceIdeal.ReadP.val_main_v60
  rw [← msgs_eq]
  rfl

/-- The new positions: the reference's result is the kernel program's. -/
theorem pos_eq' : Cert.ReferenceIdeal.ReadP.val_main_v57 (F := Ideal) (aX m c) (aPos m c) (aE m c) (aW1 m c) (aB1 m c) (aW2 m c) (aB2 m c) (aWc m c) (aBc m c)
    = W4 m ρ c (Proc.devRef .tc Cert.KernelIdeal.main_v53) := by
  refine Eq.trans ?_ (kernel_pos m ρ c).symm
  unfold Cert.ReferenceIdeal.ReadP.val_main_v57 Cert.ReferenceIdeal.ReadP.val_main_v56 Cert.ReferenceIdeal.ReadP.val_main_v53 Cert.ReferenceIdeal.ReadP.val_main_v52
  rw [Cert.ReferenceIdeal.RefVal.cw_eq, ← msgs_eq]
  rfl

end Cert.Proof.Bridge

end
-- ==== Proof.lean ====
/-
  One message-passing layer on a graph with coordinates: a kernel program of two tiled kernels (the edge network, the node
  network) among host gathers and per-node sums, against a plain reference.

  frame: each program terminates without a fault and leaves its arguments alone (the kernel programs by their several-region
  frames, the reference by its run). preserves: the idealization rewrote nothing. algebraic: at the ideal values both
  programs end with the same new features and the same new positions. The kernels' output arrays are read off their grid
  runs as whole-array functions of their windows' arrays (EdgeValue, NodeValue), these and the two host stretches give the
  results as terms of the launch arrays (HostValue, KernelSpec, KernelValue), the reference's stages are the same functions
  (RefValue), and the rest of the two programs coincides (Bridge). The one law used is that a sum of 257 = 128 + 128 + 1
  (and of 256 = 128 + 128) extended reals may be added up in groups; finiteness of the inputs is not needed.
-/
import proofs.«147072_j16587163698061_1_alg».proof.Defs
import proofs.«147072_j16587163698061_1_alg».proof.Proof.Gen.Kernel
import proofs.«147072_j16587163698061_1_alg».proof.Proof.Gen.Kernel.Frame
import proofs.«147072_j16587163698061_1_alg».proof.Proof.Gen.KernelIdeal
import proofs.«147072_j16587163698061_1_alg».proof.Proof.Gen.KernelIdeal.Frame
import proofs.«147072_j16587163698061_1_alg».proof.Proof.Gen.ReferenceIdeal
import proofs.«147072_j16587163698061_1_alg».proof.Proof.Gen.Pre_finite_inputs
import proofs.«147072_j16587163698061_1_alg».proof.Proof.RefRun
import proofs.«147072_j16587163698061_1_alg».proof.Proof.KernelRun
import proofs.«147072_j16587163698061_1_alg».proof.Proof.Bridge

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both programs, from memories that agree on the arguments, end with the same new features and new positions: the
    kernel program's two result buffers at the last segment boundary's contents, which the reference's two result terms
    equal. -/
theorem algebraic : Cert.algebraic_KernelIdeal_ReferenceIdeal := by
  intro m ρ m' ρ' _ hagree
  refine ⟨fun c => Cert.KernelIdeal.Gen.W4 m ρ c (Proc.devRef .tc Cert.KernelIdeal.main_v63),
    fun c => Cert.KernelIdeal.Gen.W4 m ρ c (Proc.devRef .tc Cert.KernelIdeal.main_v53),
    Cert.KernelIdeal.Named.run m ρ, ?_⟩
  refine (θ_run Cert.ReferenceIdeal.defs _ _).mono (fun r h c => ?_) (Cert.ReferenceIdeal.ValueP.run (F := Ideal) m' ρ')
  obtain ⟨a0, a1, a2, a3, a4, a5, a6, a7, a8, a9, a10⟩ := hagree c
  refine ⟨(h c).1.trans ?_, (h c).2.1.trans ?_, (h c).2.2⟩
  · rw [Cert.ReferenceIdeal.ReadP.val_main_v66_eq, a0, a1, a2, a3, a4, a5, a6, a7, a8]
    exact Cert.Proof.Bridge.x_eq m ρ c
  · rw [Cert.ReferenceIdeal.ReadP.val_main_v57_eq, a0, a1, a2, a3, a4, a5, a6, a9, a10]
    exact Cert.Proof.Bridge.pos_eq' m ρ c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
